-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1700000 : Shape := ⟨1, ![1700000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x200 : Shape := ⟨2, ![64, 200]⟩
abbrev S200 : Shape := ⟨1, ![200]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x200 : S_.BroadcastsInDim S64x200 (![] : Fin 0 → Fin S64x200.rank)
  reducesTo_S64x200_S_d0_1 : S64x200.ReducesTo [0, 1] S_
  bcast_S_S200 : S_.BroadcastsInDim S200 (![] : Fin 0 → Fin S200.rank)
  reducesTo_S200_S_d0 : S200.ReducesTo [0] S_

variable [Facts]

def fn_part1 {F : FTy → Type} [FloatOps F] (main_arg6 : FVec F S64 .f32) (main_arg7 : FVec F S64x200 .f32) (main_arg8 : FVec F S200 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x200 .f32 := Host.absf main_arg7
  let main_cst_8 : FVec F S_ .f32 := constant S_ .f32 0x7F800000#32
  let main_v25 : FVec F S64x200 .f32 := broadcastInDim S64x200 ![] bcast_S_S64x200 main_cst_8
  let main_v26 : IVec S64x200 1 := cmpf .olt main_v24 main_v25
  let main_c_9 : IVec S_ 1 := constantI S_ 1 1#1
  let main_v27 : IVec S_ 1 := (fun x v => Host.reduce IntOp.andi x v reducesTo_S64x200_S_d0_1 h_S_) main_v26 main_c_9
  let main_v28 : IVec S_ 1 := andi main_v23 main_v27
  let main_v29 : FVec F S200 .f32 := Host.absf main_arg8
  let main_cst_10 : FVec F S_ .f32 := constant S_ .f32 0x7F800000#32
  let main_v30 : FVec F S200 .f32 := broadcastInDim S200 ![] bcast_S_S200 main_cst_10
  let main_v31 : IVec S200 1 := cmpf .olt main_v29 main_v30
  let main_c_11 : IVec S_ 1 := constantI S_ 1 1#1
  let main_v32 : IVec S_ 1 := (fun x v => Host.reduce IntOp.andi x v reducesTo_S200_S_d0 h_S_) main_v31 main_c_11
  let main_v33 : IVec S_ 1 := andi main_v28 main_v32
  main_v33

def fn {F : FTy → Type} [FloatOps F] (main_arg0 : FVec F S100000x256 .f32) (main_arg1 : IVec S1700000 32) (main_arg2 : IVec S1700000 32) (main_arg3 : FVec F S256x128 .f32) (main_arg4 : FVec F S128 .f32) (main_arg5 : FVec F S128x64 .f32) (main_arg6 : FVec F S64 .f32) (main_arg7 : FVec F S64x200 .f32) (main_arg8 : FVec F S200 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S100000x256 : Shape := ⟨2, ![100000, 256]⟩
abbrev S1700000 : Shape := ⟨1, ![1700000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x200 : Shape := ⟨2, ![64, 200]⟩
abbrev S200 : Shape := ⟨1, ![200]⟩
abbrev S_ : Shape := ⟨0, ![]⟩
abbrev S100000 : Shape := ⟨1, ![100000]⟩
abbrev S1700000x1 : Shape := ⟨2, ![1700000, 1]⟩
abbrev S100000x1 : Shape := ⟨2, ![100000, 1]⟩
abbrev S1x128 : Shape := ⟨2, ![1, 128]⟩
abbrev S1x64 : Shape := ⟨2, ![1, 64]⟩
abbrev S1x200 : Shape := ⟨2, ![1, 200]⟩
abbrev S100000x128 : Shape := ⟨2, ![100000, 128]⟩
abbrev S1000x256 : Shape := ⟨2, ![1000, 256]⟩
abbrev S1000x1 : Shape := ⟨2, ![1000, 1]⟩
abbrev S1000x128 : Shape := ⟨2, ![1000, 128]⟩
abbrev S1700000x128 : Shape := ⟨2, ![1700000, 128]⟩
abbrev S100000x64 : Shape := ⟨2, ![100000, 64]⟩
abbrev S1000x64 : Shape := ⟨2, ![1000, 64]⟩
abbrev S1700000x64 : Shape := ⟨2, ![1700000, 64]⟩
abbrev S100000x200 : Shape := ⟨2, ![100000, 200]⟩
abbrev S1000x200 : Shape := ⟨2, ![1000, 200]⟩
abbrev S1000 : Shape := ⟨1, ![1000]⟩

abbrev nBuf : Space → Nat
  | .hbm => 71
  | .vmem => 34
  | .smem => 0
  | _ => 0

abbrev bufTy : (tb : Table) → Fin (tcTables nBuf tb) → BufTy
  | .hbm, ⟨0, _⟩ => ⟨S100000x256, .f32⟩
  | .hbm, ⟨1, _⟩ => ⟨S1700000, .i32⟩
  | .hbm, ⟨2, _⟩ => ⟨S1700000, .i32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x200, .f32⟩
  | .hbm, ⟨8, _⟩ => ⟨S200, .f32⟩
  | .hbm, ⟨9, _⟩ => ⟨S_, .f32⟩
  | .hbm, ⟨10, _⟩ => ⟨S1700000, .f32⟩
  | .hbm, ⟨11, _⟩ => ⟨S_, .f32⟩
  | .hbm, ⟨12, _⟩ => ⟨S100000, .f32⟩
  | .hbm, ⟨13, _⟩ => ⟨S1700000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S1x128, .f32⟩
  | .hbm, ⟨38, _⟩ => ⟨S1x64, .f32⟩
  | .hbm, ⟨39, _⟩ => ⟨S1x200, .f32⟩
  | .hbm, ⟨40, _⟩ => ⟨S100000x128, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S_, .f32⟩
  | .hbm, ⟨51, _⟩ => ⟨S100000x128, .f32⟩
  | .hbm, ⟨52, _⟩ => ⟨S1700000x1, .i32⟩
  | .hbm, ⟨53, _⟩ => ⟨S100000x128, .f32⟩
  | .hbm, ⟨54, _⟩ => ⟨S100000x128, .f32⟩
  | .hbm, ⟨55, _⟩ => ⟨S100000x64, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S100000x64, .f32⟩
  | .hbm, ⟨70, _⟩ => ⟨S100000x200, .f32⟩
  | .local _ .vmem, ⟨0, _⟩ => ⟨S1000x256, .f32⟩
  | .local _ .vmem, ⟨1, _⟩ => ⟨S1000x256, .f32⟩
  | .local _ .vmem, ⟨2, _⟩ => ⟨S256x128, .f32⟩
  | .local _ .vmem, ⟨3, _⟩ => ⟨S1000x1, .f32⟩
  | .local _ .vmem, ⟨4, _⟩ => ⟨S1000x1, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x1, .f32⟩
  | .local _ .vmem, ⟨10, _⟩ => ⟨S1000x1, .f32⟩
  | .local _ .vmem, ⟨11, _⟩ => ⟨S1x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S128x64, .f32⟩
  | .local _ .vmem, ⟨17, _⟩ => ⟨S1000x1, .f32⟩
  | .local _ .vmem, ⟨18, _⟩ => ⟨S1000x1, .f32⟩
  | .local _ .vmem, ⟨19, _⟩ => ⟨S1000x64, .f32⟩
  | .local _ .vmem, ⟨20, _⟩ => ⟨S1000x64, .f32⟩
  | .local _ .vmem, ⟨21, _⟩ => ⟨S1000x64, .f32⟩
  | .local _ .vmem, ⟨22, _⟩ => ⟨S1000x64, .f32⟩
  | .local _ .vmem, ⟨23, _⟩ => ⟨S1000x1, .f32⟩
  | .local _ .vmem, ⟨24, _⟩ => ⟨S1000x1, .f32⟩
  | .local _ .vmem, ⟨25, _⟩ => ⟨S1x64, .f32⟩
  | .local _ .vmem, ⟨26, _⟩ => ⟨S1000x64, .f32⟩
  | .local _ .vmem, ⟨27, _⟩ => ⟨S1000x64, .f32⟩
  | .local _ .vmem, ⟨28, _⟩ => ⟨S1000x64, .f32⟩
  | .local _ .vmem, ⟨29, _⟩ => ⟨S1000x64, .f32⟩
  | .local _ .vmem, ⟨30, _⟩ => ⟨S64x200, .f32⟩
  | .local _ .vmem, ⟨31, _⟩ => ⟨S1x200, .f32⟩
  | .local _ .vmem, ⟨32, _⟩ => ⟨S1000x200, .f32⟩
  | .local _ .vmem, ⟨33, _⟩ => ⟨S1000x200, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v12 : Ref sig .tc := ⟨.hbm, 32, rfl⟩
abbrev main_cst_6 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_7 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_8 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_9 : Ref sig .tc := ⟨.hbm, 56, rfl⟩
abbrev main_v32 : Ref sig .tc := ⟨.hbm, 57, rfl⟩
abbrev main_v33 : Ref sig .tc := ⟨.hbm, 58, rfl⟩
abbrev main_c_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x200 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x200 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x200 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S128_S1x128 : S128.ShapeCasts S1x128
  shapeCasts_S64_S1x64 : S64.ShapeCasts S1x64
  shapeCasts_S200_S1x200 : S200.ShapeCasts S1x200
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S1000x128_S1000x128_0_0 : ∀ a, (![0, 0] : Fin 2 → Nat) a + S1000x128.size a ≤ S1000x128.size a
  h_S1000x128 : 0 < S1000x128.numel
  bcast_S_S100000x128 : S_.BroadcastsInDim S100000x128 (![] : Fin 0 → Fin S100000x128.rank)
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x64_S128x64_0_0 : ∀ a, (![0, 0] : Fin 2 → Nat) a + S128x64.size a ≤ S128x64.size a
  h_S128x64 : 0 < S128x64.numel
  broadcasts_S1000x1_S1000x64 : S1000x1.Broadcasts S1000x64
  inb_S1000x64_S1000x64_0_0 : ∀ a, (![0, 0] : Fin 2 → Nat) a + S1000x64.size a ≤ S1000x64.size a
  h_S1000x64 : 0 < S1000x64.numel
  bcast_S_S100000x64 : S_.BroadcastsInDim S100000x64 (![] : Fin 0 → Fin S100000x64.rank)
  shapeCasts_S1000x64_S1000x64 : S1000x64.ShapeCasts S1000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x200_S64x200_0_0 : ∀ a, (![0, 0] : Fin 2 → Nat) a + S64x200.size a ≤ S64x200.size a
  h_S64x200 : 0 < S64x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S1000x200 : S1x200.Broadcasts S1000x200
  reduces_S1000x200_S1000 : S1000x200.Reduces [1] S1000
  shapeCasts_S1000_S1000x1 : S1000.ShapeCasts S1000x1
  broadcasts_S1000x1_S1000x200 : S1000x1.Broadcasts S1000x200
  inb_S1000x200_S1000x200_0_0 : ∀ a, (![0, 0] : Fin 2 → Nat) a + S1000x200.size a ≤ S1000x200.size a
  h_S1000x200 : 0 < S1000x200.numel
  scatter_S100000_S1700000x1_S1700000_n_0_0_1_wf : ScatterDims.WF S100000 S1700000x1 S1700000 [] [0] [0] 1
  dot_S1000x256_S256x128_S1000x128_1_0_0_1_n_n_wf : DotDims.WF S1000x256 S256x128 S1000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S1000x128_S128x64_S1000x64_1_0_0_1_n_n_wf : DotDims.WF S1000x128 S128x64 S1000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S1000x64_S64x200_S1000x200_1_0_0_1_n_n_wf : DotDims.WF S1000x64 S64x200 S1000x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S100000x256.size a
  hwx0_0 : ∀ i : grid0.Coords, EltTy.bits .f32 = 32 ∨ (Rect.block (s := S100000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S100000x1.size a
  hwx0_2 : ∀ i : grid0.Coords, EltTy.bits .f32 = 32 ∨ (Rect.block (s := S100000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S100000x128.size a
  hwx0_3 : ∀ i : grid0.Coords, EltTy.bits .f32 = 32 ∨ (Rect.block (s := S100000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S100000x1.size a
  hwx1_1 : ∀ i : grid1.Coords, EltTy.bits .f32 = 32 ∨ (Rect.block (s := S100000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S100000x128.size a
  hwx1_3 : ∀ i : grid1.Coords, EltTy.bits .f32 = 32 ∨ (Rect.block (s := S100000x128) S1000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S100000x128.size a
  hwx2_0 : ∀ i : grid2.Coords, EltTy.bits .f32 = 32 ∨ (Rect.block (s := S100000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S100000x1.size a
  hwx2_2 : ∀ i : grid2.Coords, EltTy.bits .f32 = 32 ∨ (Rect.block (s := S100000x1) S1000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x64.size a ≤ S100000x64.size a
  hwx2_3 : ∀ i : grid2.Coords, EltTy.bits .f32 = 32 ∨ (Rect.block (s := S100000x64) S1000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S100000x64.size a
  hwx3_0 : ∀ i : grid3.Coords, EltTy.bits .f32 = 32 ∨ (Rect.block (s := S100000x64) S1000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S100000x1.size a
  hwx3_1 : ∀ i : grid3.Coords, EltTy.bits .f32 = 32 ∨ (Rect.block (s := S100000x1) S1000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x64.size a ≤ S100000x64.size a
  hwx3_3 : ∀ i : grid3.Coords, EltTy.bits .f32 = 32 ∨ (Rect.block (s := S100000x64) S1000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S100000x64.size a
  hwx4_0 : ∀ i : grid4.Coords, EltTy.bits .f32 = 32 ∨ (Rect.block (s := S100000x64) S1000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x200.size a ≤ S64x200.size a
  hwx4_1 : ∀ i : grid4.Coords, EltTy.bits .f32 = 32 ∨ (Rect.block (s := S64x200) S64x200.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x200.size a ≤ S1x200.size a
  hwx4_2 : ∀ i : grid4.Coords, EltTy.bits .f32 = 32 ∨ (Rect.block (s := S1x200) S1x200.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x200.size a ≤ S100000x200.size a
  hwx4_3 : ∀ i : grid4.Coords, EltTy.bits .f32 = 32 ∨ (Rect.block (s := S100000x200) S1000x200.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S1000x64_S64x200_S1000x200_1_0_0_1_n_n : DotDims S1000x64 S64x200 S1000x200 where
  lhsContracting := [1]
  rhsContracting := [0]
  lhsNonContracting := [0]
  rhsNonContracting := [1]
  lhsBatch := []
  rhsBatch := []
  wf := dot_S1000x64_S64x200_S1000x200_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v42) S1000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x200.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v18) S1x200.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v43) S1000x200.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x256 : Shape := ⟨2, ![100000, 256]⟩
abbrev S1700000 : Shape := ⟨1, ![1700000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x200 : Shape := ⟨2, ![64, 200]⟩
abbrev S200 : Shape := ⟨1, ![200]⟩
abbrev S100000x128 : Shape := ⟨2, ![100000, 128]⟩
abbrev S_ : Shape := ⟨0, ![]⟩
abbrev S100000 : Shape := ⟨1, ![100000]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x200 : Shape := ⟨2, ![100000, 200]⟩
abbrev S1x200 : Shape := ⟨2, ![1, 200]⟩

abbrev nBuf : Space → Nat
  | .hbm => 132
  | .vmem => 0
  | .smem => 0
  | _ => 0

abbrev hbmTy0_0 (i : Nat) : BufTy := match i % 128 with
  | 0 => ⟨S100000x256, .f32⟩
  | 1 => ⟨S1700000, .i32⟩
  | 2 => ⟨S1700000, .i32⟩
  | 3 => ⟨S256x128, .f32⟩
  | 4 => ⟨S128, .f32⟩
  | 5 => ⟨S128x64, .f32⟩
  | 6 => ⟨S64, .f32⟩
  | 7 => ⟨S64x200, .f32⟩
  | 8 => ⟨S200, .f32⟩
  | 9 => ⟨S100000x128, .f32⟩
  | 10 => ⟨S_, .f32⟩
  | 11 => ⟨S1700000, .f32⟩
  | 12 => ⟨S_, .f32⟩
  | 13 => ⟨S100000, .f32⟩
  | 14 => ⟨S1700000x1, .i32⟩
  | 15 => ⟨S100000, .f32⟩
  | 16 => ⟨S_, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000x1, .f32⟩
  | 24 => ⟨S100000x128, .f32⟩
  | 25 => ⟨S100000x128, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000x128, .f32⟩
  | 35 => ⟨S_, .f32⟩
  | 36 => ⟨S100000x128, .f32⟩
  | 37 => ⟨S1700000x1, .i32⟩
  | 38 => ⟨S100000x128, .f32⟩
  | 39 => ⟨S_, .f32⟩
  | 40 => ⟨S1700000, .f32⟩
  | 41 => ⟨S_, .f32⟩
  | 42 => ⟨S100000, .f32⟩
  | 43 => ⟨S1700000x1, .i32⟩
  | 44 => ⟨S100000, .f32⟩
  | 45 => ⟨S_, .f32⟩
  | 46 => ⟨S_, .f32⟩
  | 47 => ⟨S100000, .f32⟩
  | 48 => ⟨S100000, .f32⟩
  | 49 => ⟨S_, .f32⟩
  | 50 => ⟨S100000, .f32⟩
  | 51 => ⟨S100000, .f32⟩
  | 52 => ⟨S100000x1, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S100000x64, .f32⟩
  | 62 => ⟨S_, .f32⟩
  | 63 => ⟨S1700000, .f32⟩
  | 64 => ⟨S_, .f32⟩
  | 65 => ⟨S100000, .f32⟩
  | 66 => ⟨S1700000x1, .i32⟩
  | 67 => ⟨S100000, .f32⟩
  | 68 => ⟨S_, .f32⟩
  | 69 => ⟨S_, .f32⟩
  | 70 => ⟨S100000, .f32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x64, .f32⟩
  | 77 => ⟨S100000x64, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x64, .f32⟩
  | 87 => ⟨S_, .f32⟩
  | 88 => ⟨S100000x64, .f32⟩
  | 89 => ⟨S1700000x1, .i32⟩
  | 90 => ⟨S100000x64, .f32⟩
  | 91 => ⟨S_, .f32⟩
  | 92 => ⟨S1700000, .f32⟩
  | 93 => ⟨S_, .f32⟩
  | 94 => ⟨S100000, .f32⟩
  | 95 => ⟨S1700000x1, .i32⟩
  | 96 => ⟨S100000, .f32⟩
  | 97 => ⟨S_, .f32⟩
  | 98 => ⟨S_, .f32⟩
  | 99 => ⟨S100000, .f32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S100000x200, .f32⟩
  | 114 => ⟨S1x200, .f32⟩
  | 115 => ⟨S100000x200, .f32⟩
  | 116 => ⟨S100000x200, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x200, .f32⟩
  | 124 => ⟨S100000x200, .f32⟩
  | 125 => ⟨S100000x200, .f32⟩
  | 126 => ⟨S_, .f32⟩
  | 127 => ⟨S100000, .f32⟩
  | _ => ⟨S100000x256, .f32⟩

abbrev hbmTy0_1 (i : Nat) : BufTy := match i % 128 with
  | 0 => ⟨S100000x1, .f32⟩
  | 1 => ⟨S100000x1, .f32⟩
  | 2 => ⟨S100000x200, .f32⟩
  | 3 => ⟨S100000x200, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v25 : Ref sig .tc := ⟨.hbm, 48, rfl⟩
abbrev main_cst_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call2_cst : Ref sig .tc := ⟨.hbm, 58, rfl⟩
abbrev main_call2_v0 : Ref sig .tc := ⟨.hbm, 59, rfl⟩
abbrev main_v34 : Ref sig .tc := ⟨.hbm, 60, rfl⟩
abbrev main_v35 : Ref sig .tc := ⟨.hbm, 61, rfl⟩
abbrev main_cst_9 : Ref sig .tc := ⟨.hbm, 62, rfl⟩
abbrev main_v36 : Ref sig .tc := ⟨.hbm, 63, rfl⟩
abbrev main_cst_10 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_call3_v0 : Ref sig .tc := ⟨.hbm, 69, rfl⟩
abbrev main_call3_v1 : Ref sig .tc := ⟨.hbm, 70, rfl⟩
abbrev main_v40 : Ref sig .tc := ⟨.hbm, 71, rfl⟩
abbrev main_cst_12 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_13 : Ref sig .tc := ⟨.hbm, 78, rfl⟩
abbrev main_v46 : Ref sig .tc := ⟨.hbm, 79, rfl⟩
abbrev main_v47 : Ref sig .tc := ⟨.hbm, 80, rfl⟩
abbrev main_c_14 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_15 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_16 : Ref sig .tc := ⟨.hbm, 91, rfl⟩
abbrev main_v56 : Ref sig .tc := ⟨.hbm, 92, rfl⟩
abbrev main_cst_17 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_18 : Ref sig .tc := ⟨.hbm, 97, rfl⟩
abbrev main_call4_v0 : Ref sig .tc := ⟨.hbm, 98, rfl⟩
abbrev main_call4_v1 : Ref sig .tc := ⟨.hbm, 99, rfl⟩
abbrev main_v60 : Ref sig .tc := ⟨.hbm, 100, rfl⟩
abbrev main_cst_19 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_call5_cst : Ref sig .tc := ⟨.hbm, 110, rfl⟩
abbrev main_call5_v0 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_call6_cst : Ref sig .tc := ⟨.hbm, 117, rfl⟩
abbrev main_call6_v0 : Ref sig .tc := ⟨.hbm, 118, rfl⟩
abbrev main_call6_cst_0 : Ref sig .tc := ⟨.hbm, 119, rfl⟩
abbrev main_call6_v1 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_call6_v5 : Ref sig .tc := ⟨.hbm, 124, rfl⟩
abbrev main_call6_v6 : Ref sig .tc := ⟨.hbm, 125, rfl⟩
abbrev main_call6_cst_1 : Ref sig .tc := ⟨.hbm, 126, rfl⟩
abbrev main_call6_v7 : Ref sig .tc := ⟨.hbm, 127, rfl⟩
abbrev main_call6_v8 : Ref sig .tc := ⟨.hbm, 128, rfl⟩
abbrev main_call6_v9 : Ref sig .tc := ⟨.hbm, 129, rfl⟩
abbrev main_call6_v10 : Ref sig .tc := ⟨.hbm, 130, rfl⟩
abbrev main_v74 : Ref sig .tc := ⟨.hbm, 131, rfl⟩

abbrev nD : Nat := 1
abbrev τ : Topo := Topo.v7x

variable {F : FTy → Type} [FloatOps F]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S200_S1x200_1 : S200.BroadcastsInDim S1x200 (![1] : Fin 1 → Fin S1x200.rank)
  bcast_S1x200_S100000x200_0_1 : S1x200.BroadcastsInDim S100000x200 (![0, 1] : Fin 2 → Fin S100000x200.rank)
  reducesTo_S100000x200_S100000_d1 : S100000x200.ReducesTo [1] S100000
  h_S_ : 0 < S_.numel
  bcast_S100000x1_S100000x200_0_1 : S100000x1.BroadcastsInDim S100000x200 (![0, 1] : Fin 2 → Fin S100000x200.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x200_S100000x200_1_0_0_1_n_n_wf : DotDims.WF S100000x64 S64x200 S100000x200 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x200_S100000x200_1_0_0_1_n_n : DotDims S100000x64 S64x200 S100000x200 where
  lhsContracting := [1]
  rhsContracting := [0]
  lhsNonContracting := [0]
  rhsNonContracting := [1]
  lhsBatch := []
  rhsBatch := []
  wf := dot_S100000x64_S64x200_S100000x200_1_0_0_1_n_n_wf

class Facts : Prop extends Facts₀ where

variable [Facts]
-- ==== Proof.Spec.lean ====
/- What each of the five kernels leaves in its output array, written as ONE function of the three arrays the
   kernel reads, entry by entry over the extended reals.  Rows are nodes; a kernel's grid point handles 1000
   consecutive rows, and no entry depends on how the rows are grouped. -/
import proofs.«154651_j18459769438249_1_alg».proof.KernelIdeal
import Idealize.ShloMosaic.Lib.ValueIdx
import Idealize.ShloMosaic.PureOps.Ideal.Laws

noncomputable section

open scoped BigOperators

namespace Cert.KernelIdeal.Spec

open Idealize.ShloMosaic Idealize.ShloMosaic.ValueIdx Cert.KernelIdeal

/-- First transform: entry (r, j) is (∑ₖ X[r,k]·W[k,j]) · D[r,0] — the linear layer's row r scaled by node r's factor. -/
def lin1 (X : FVec Ideal S100000x256 .f32) (W : FVec Ideal S256x128 .f32) (D : FVec Ideal S100000x1 .f32) :
    FVec Ideal S100000x128 .f32 :=
  fun i => (∑ k : Fin 256, X (ix2 (i 0 : Fin 100000) k) * W (ix2 k (i 1 : Fin 128))) * D (ix2 (i 0 : Fin 100000) (0 : Fin 1))

/-- Second transform: the same with 128 input and 64 output features. -/
def lin2 (X : FVec Ideal S100000x128 .f32) (W : FVec Ideal S128x64 .f32) (D : FVec Ideal S100000x1 .f32) :
    FVec Ideal S100000x64 .f32 :=
  fun i => (∑ k : Fin 128, X (ix2 (i 0 : Fin 100000) k) * W (ix2 k (i 1 : Fin 64))) * D (ix2 (i 0 : Fin 100000) (0 : Fin 1))

/-- First finalize: entry (r, j) is max(M[r,j]·D[r,0] + B[0,j], 0). -/
def act1 (M : FVec Ideal S100000x128 .f32) (D : FVec Ideal S100000x1 .f32) (B : FVec Ideal S1x128 .f32) :
    FVec Ideal S100000x128 .f32 :=
  fun i => max (M i * D (ix2 (i 0 : Fin 100000) (0 : Fin 1)) + B (ix2 (0 : Fin 1) (i 1 : Fin 128))) (Ideal.ofBits .f32 0x00000000#32)

/-- Second finalize: the same at 64 features. -/
def act2 (M : FVec Ideal S100000x64 .f32) (D : FVec Ideal S100000x1 .f32) (B : FVec Ideal S1x64 .f32) :
    FVec Ideal S100000x64 .f32 :=
  fun i => max (M i * D (ix2 (i 0 : Fin 100000) (0 : Fin 1)) + B (ix2 (0 : Fin 1) (i 1 : Fin 64))) (Ideal.ofBits .f32 0x00000000#32)

/-- The class scores: entry (r, j) is ∑ₖ H[r,k]·W[k,j] + B[0,j]. -/
def logits (H : FVec Ideal S100000x64 .f32) (W : FVec Ideal S64x200 .f32) (B : FVec Ideal S1x200 .f32) :
    FVec Ideal S100000x200 .f32 :=
  fun i => (∑ k : Fin 64, H (ix2 (i 0 : Fin 100000) k) * W (ix2 k (i 1 : Fin 200))) + B (ix2 (0 : Fin 1) (i 1 : Fin 200))

/-- A row's maximum, folded from −∞ (kept as its bit pattern, never evaluated). -/
def rowMax (L : FVec Ideal S100000x200 .f32) (r : Fin 100000) : Ideal .f32 :=
  (Finset.univ : Finset (Fin 200)).fold max (Ideal.ofBits .f32 0xFF800000#32) fun k => L (ix2 r k)

/-- Log-softmax along a row: (L − max) − log ∑ exp(L − max). -/
def logSoftmax (L : FVec Ideal S100000x200 .f32) : FVec Ideal S100000x200 .f32 :=
  fun i => (L i - rowMax L (i 0)) - Ideal.log (∑ k : Fin 200, Ideal.exp (L (ix2 (i 0 : Fin 100000) k) - rowMax L (i 0)))

/-- The last kernel: log-softmax of the class scores. -/
def head (H : FVec Ideal S100000x64 .f32) (W : FVec Ideal S64x200 .f32) (B : FVec Ideal S1x200 .f32) :
    FVec Ideal S100000x200 .f32 :=
  logSoftmax (logits H W B)

end Cert.KernelIdeal.Spec

end
-- ==== Proof.Blocks0.lean ====
/- Region 0 (first transform): whatever the TensorCore's buffers hold when the region is entered, its output array ends as `Spec.lin1` of the three arrays it reads. -/
import proofs.«154651_j18459769438249_1_alg».proof.Proof.Gen.KernelIdeal.Frame
import proofs.«154651_j18459769438249_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

private theorem hz : (![0, 0] : Fin 2 → Nat) = fun _ => 0 := funext fun a => by fin_cases a <;> rfl

/-- Output row `p`, contraction coordinate: the left operand is read at row `p`. -/
private theorem lhs_dot_0 (i : S1000x128.Idx) (q : dot_S1000x256_S256x128_S1000x128_1_0_0_1_n_n.contr.Idx) :
    (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
private theorem lhs_dot_1 (i : S1000x128.Idx) (q : dot_S1000x256_S256x128_S1000x128_1_0_0_1_n_n.contr.Idx) :
    (dot_S1000x256_S256x128_S1000x128_1_0_0_1_n_n.lhsIdx i q 1).val = (q ⟨0, by decide⟩).val :=
  dot_S1000x256_S256x128_S1000x128_1_0_0_1_n_n.lhsIdx_val_of_single rfl i q
private theorem rhs_dot_0 (i : S1000x128.Idx) (q : dot_S1000x256_S256x128_S1000x128_1_0_0_1_n_n.contr.Idx) :
    (dot_S1000x256_S256x128_S1000x128_1_0_0_1_n_n.rhsIdx i q 0).val = (q ⟨0, by decide⟩).val :=
  dot_S1000x256_S256x128_S1000x128_1_0_0_1_n_n.rhsIdx_val_of_single rfl i q
private theorem rhs_dot_1 (i : S1000x128.Idx) (q : dot_S1000x256_S256x128_S1000x128_1_0_0_1_n_n.contr.Idx) :
    (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- The product into the zero accumulator, read at an entry: the row of the left operand against the column of the right. -/
private theorem matmul_apply0 (a : FVec Ideal S1000x256 .bf16) (b : FVec Ideal S256x128 .bf16) (p : Fin 1000) (q : Fin 128) :
    FloatOps.matmul dot_S1000x256_S256x128_S1000x128_1_0_0_1_n_n none a b (constant S1000x128 .f32 0x00000000#32) (ix2 p q)
      = ∑ k : Fin 256, a (ix2 p k) * b (ix2 k q) := by
  rw [Ideal.matmul_constant_zero_apply, ← Equiv.sum_comp (contrEquiv1 dot_S1000x256_S256x128_S1000x128_1_0_0_1_n_n 256 rfl rfl).symm]
  refine Finset.sum_congr rfl fun k _ => ?_
  have hk := contrEquiv1_symm_val dot_S1000x256_S256x128_S1000x128_1_0_0_1_n_n 256 rfl rfl k
  have el : dot_S1000x256_S256x128_S1000x128_1_0_0_1_n_n.lhsIdx (ix2 p q) ((contrEquiv1 dot_S1000x256_S256x128_S1000x128_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S1000x256_S256x128_S1000x128_1_0_0_1_n_n.rhsIdx (ix2 p q) ((contrEquiv1 dot_S1000x256_S256x128_S1000x128_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-- A column [1000,1] broadcast along the rows of [1000,128], read at an entry: the column's entry of that row. -/
private theorem bcast_col_apply (v : FVec Ideal S1000x1 .f32) (p : Fin 1000) (q : Fin 128) :
    broadcastTo S1000x128 v broadcasts_S1000x1_S1000x128 (ix2 p q) = v (ix2 p (0 : Fin 1)) := by
  refine broadcastTo_apply v broadcasts_S1000x1_S1000x128 (ix2 p q) (ix2 p (0 : Fin 1)) fun a => ?_
  match a with
  | ⟨0, _⟩ => rfl
  | ⟨1, _⟩ => rfl

/-- The body's arithmetic at an entry. -/
private theorem pay_apply (x0 : Vec Ideal S1000x256 .f32) (x1 : Vec Ideal S256x128 .f32) (x2 : Vec Ideal S1000x1 .f32) (p : Fin 1000) (q : Fin 128) :
    k0_pay1 (F := Ideal) x0 x1 x2 (ix2 p q) = (∑ k : Fin 256, x0 (ix2 p k) * x1 (ix2 k q)) * x2 (ix2 p (0 : Fin 1)) := by
  unfold k0_pay1
  refine (mulf_apply _ _ _).trans ?_
  refine congrArg₂ (· * ·) ?_ ?_
  · exact matmul_apply0 _ _ p q
  · refine (bcast_col_apply _ p q).trans ?_
    rw [shapeCast_self]

/-- The index maps over the grid: the row-tiled windows move with the output's rows, the weight matrix stays. -/
private theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) = t.val
    ∧ win0_3.index t (1 : Fin 2) = 0 :=
  (by decide +kernel : ∀ t : Fin grid0.N, _)

/-- Row `p` of point `t`'s block is row `1000·t + p` of the array. -/
private abbrev row (t : Fin cfg0.N) (p : Fin 1000) : Fin 100000 :=
  ⟨t.val * 1000 + p.val, by have h1 : t.val < cfg0.N := t.isLt; have h2 : cfg0.N = 100 := N_0; have := p.isLt; omega⟩

/-- Entry (p, q) of the output's block at point `t` is entry (1000·t + p, q) of the output array. -/
private theorem emb3 (t : Fin cfg0.N) (p : Fin 1000) (q : Fin 128) :
    ((cfg0.win 3).blk t).view.emb (ix2 p q) = ix2 (row t p) q := by
  obtain ⟨e0, e1, e2, e3, e4, e5, e6, e7⟩ := idx_facts t
  funext a; apply Fin.ext
  match a with
  | ⟨0, _⟩ => show win0_3.index t (0 : Fin 2) * 1000 + 1 * p.val = t.val * 1000 + p.val; omega
  | ⟨1, _⟩ => show win0_3.index t (1 : Fin 2) * 128 + 1 * q.val = q.val; omega

/-- The input block at point `t` holds the input array's rows `1000·t …`. -/
private theorem read0 (c : Dev nD) (t : Fin cfg0.N) (p : Fin 1000) (k : Fin 256) :
    iblk0 V c 0 t (ix2 p k) = V c main_arg0 (ix2 (row t p) k) := by
  obtain ⟨e0, e1, e2, e3, e4, e5, e6, e7⟩ := idx_facts t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 1000 + 1 * p.val = t.val * 1000 + p.val; omega
  | ⟨1, _⟩ => show win0_0.index t (1 : Fin 2) * 256 + 1 * k.val = k.val; omega

/-- The weight block at every point is the whole weight matrix. -/
private theorem read1 (c : Dev nD) (t : Fin cfg0.N) (k : Fin 256) (q : Fin 128) :
    iblk0 V c 1 t (ix2 k q) = V c main_arg3 (ix2 k q) := by
  obtain ⟨e0, e1, e2, e3, e4, e5, e6, e7⟩ := idx_facts t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

/-- The factor block at point `t` holds the factor column's rows `1000·t …`. -/
private theorem read2 (c : Dev nD) (t : Fin cfg0.N) (p : Fin 1000) :
    iblk0 V c 2 t (ix2 p (0 : Fin 1)) = V c main_v7 (ix2 (row t p) (0 : Fin 1)) := by
  obtain ⟨e0, e1, e2, e3, e4, e5, e6, e7⟩ := idx_facts t
  show V c main_v7 (((cfg0.win 2).blk t).view.emb (ix2 p (0 : Fin 1))) = V c main_v7 (ix2 (row t p) (0 : Fin 1))
  refine congrArg (V c main_v7) (funext fun a => Fin.ext ?_)
  match a with
  | ⟨0, _⟩ => show win0_2.index t (0 : Fin 2) * 1000 + 1 * p.val = t.val * 1000 + p.val; omega
  | ⟨1, _⟩ => show win0_2.index t (1 : Fin 2) * 1 + 1 * (0 : Fin 1).val = (0 : Fin 1).val; omega

/-- The closed form at an entry named by its coordinates. -/
private theorem lin1_apply (X : FVec Ideal S100000x256 .f32) (W : FVec Ideal S256x128 .f32) (D : FVec Ideal S100000x1 .f32)
    (r : Fin 100000) (q : Fin 128) :
    Spec.lin1 X W D (ix2 r q) = (∑ k : Fin 256, X (ix2 r k) * W (ix2 k q)) * D (ix2 r (0 : Fin 1)) := rfl

/-- What point `t` writes back is block `t` of the closed form. -/
private theorem flushed_eq (c : Dev nD) (t : Fin cfg0.N) :
    (dat0 (F := Ideal) V c).flushed 3 t = ((cfg0.win 3).blk t).view.read (Elt Ideal) (Spec.lin1 (V c main_arg0) (V c main_arg3) (V c main_v7)) := by
  show (cfg0.win 3).cut (grid0.coords t) ((dat0 V c).after 3 t) = _
  rw [after0_3]
  unfold out0_3
  rw [View.canon_unit_zero hz]
  simp only [View.ld_unit_zero (S := S1000x256) hz, View.ld_unit_zero (S := S256x128) hz, View.ld_unit_zero (S := S1000x1) hz]
  funext y
  obtain ⟨p, q, rfl⟩ : ∃ (p : Fin 1000) (q : Fin 128), y = ix2 p q := ⟨y 0, y 1, eq_ix2 y⟩
  show k0_pay1 (F := Ideal) (iblk0 V c 0 t) (iblk0 V c 1 t) (iblk0 V c 2 t) (ix2 p q)
    = Spec.lin1 (V c main_arg0) (V c main_arg3) (V c main_v7) (((cfg0.win 3).blk t).view.emb (ix2 p q))
  rw [emb3]
  refine (pay_apply _ _ _ p q).trans ?_
  refine Eq.trans ?_ (lin1_apply _ _ _ (row t p) q).symm
  refine congrArg₂ (· * ·) (Finset.sum_congr rfl fun k _ => ?_) (read2 V c t p)
  exact congrArg₂ (· * ·) (read0 V c t p k) (read1 V c t k q)

/-- An index of the output array is in point `t`'s block iff each coordinate is in the block's range on its axis. -/
private theorem mem_blk (t : Fin cfg0.N) (i : S100000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v19).slice (win0_3.rect t)).set ↔ _
  rw [View.set_slice_whole, Rect.mem_set_unit]
  exact Iff.rfl

/-- The blocks tile the output array: row `r` lies in the block of point `r / 1000`. -/
private theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 100 := N_0
  let t : Fin cfg0.N := ⟨(i 0).val / 1000, by omega⟩
  have ht : t.val = (i 0).val / 1000 := rfl
  obtain ⟨e0, e1, e2, e3, e4, e5, e6, e7⟩ := idx_facts t
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 128 ≤ (i 1).val ∧ (i 1).val < win0_3.index t (1 : Fin 2) * 128 + 128; omega

/-- Region 0 (first transform): whatever the TensorCore's buffers hold when the region is entered, its output array ends as `Spec.lin1` of the three arrays it reads. -/
theorem arr0 (c : Dev nD) :
    (dat0 (F := Ideal) V c).arrAt 3 cfg0.N = Spec.lin1 (V c main_arg0) (V c main_arg3) (V c main_v7) :=
  (dat0 V c).arrAt_eq_of_cover 3 (Spec.lin1 (V c main_arg0) (V c main_arg3) (V c main_v7)) (fun t _ => flushed_eq V c t) cover

end Cert.KernelIdeal.Blocks0

end
-- ==== Proof.Blocks1.lean ====
/- Region 1 (first finalize): its output array ends as `Spec.act1` of the three arrays it reads. -/
import proofs.«154651_j18459769438249_1_alg».proof.Proof.Gen.KernelIdeal.Frame
import proofs.«154651_j18459769438249_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offset of a whole-block access, as a constant function. -/
theorem hz : (![0, 0] : Fin 2 → Nat) = fun _ => 0 := funext fun a => by fin_cases a <;> rfl

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at one entry of the block: max(x·d + b, 0), the row factor read at the entry's row and the
    bias at its column. -/
theorem pay_apply (x0 : Vec Ideal S1000x128 .f32) (x1 : Vec Ideal S1000x1 .f32) (x2 : Vec Ideal S1x128 .f32)
    (p : Fin 1000) (q : Fin 128) :
    k1_pay1 (F := Ideal) x0 x1 x2 (ix2 p q)
      = max (x0 (ix2 p q) * x1 (ix2 p (0 : Fin 1)) + x2 (ix2 (0 : Fin 1) q)) (Ideal.ofBits .f32 0x00000000#32) := by
  unfold k1_pay1
  rw [shapeCast_self, shapeCast_self, shapeCast_self]
  show max (x0 (ix2 p q) * broadcastTo S1000x128 x1 broadcasts_S1000x1_S1000x128 (ix2 p q)
      + broadcastTo S1000x128 x2 broadcasts_S1x128_S1000x128 (ix2 p q)) (Ideal.ofBits .f32 0x00000000#32) = _
  rw [broadcastTo_a1_ab_apply x1 broadcasts_S1000x1_S1000x128 p q, broadcastTo_1b_ab_apply x2 broadcasts_S1x128_S1000x128 p q]

/-- The printed index maps, decided over the grid: the row-tiled inputs move with the output's row block, the bias
    row stays at block 0, and the output's row block index stays below 100. -/
theorem idx_facts : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (0 : Fin 2) ≤ 99
    ∧ win1_3.index t (1 : Fin 2) = 0 :=
  (by decide +kernel : ∀ t : Fin grid1.N, _)

/-- Every row block of the output is some point's. -/
theorem idx_onto : ∀ (q0 : Fin 100), ∃ t : Fin cfg1.N, win1_3.index t = ![q0.val, 0] :=
  (by decide +kernel : ∀ (q0 : Fin 100), ∃ t : Fin grid1.N, win1_3.index t = ![q0.val, 0])

/-- The input block of rows at point `t`, read at `(p, q)`, is the array at the entry the output's block puts there. -/
theorem blk0_read (c : Dev nD) (t : Fin cfg1.N) (p : Fin 1000) (q : Fin 128) :
    iblk1 (F := Ideal) V c 0 t (ix2 p q) = V c main_v29 (((cfg1.win 3).blk t).view.emb (ix2 p q)) := by
  obtain ⟨e0, e1, e2, e3, e4, e5, e6, e7⟩ := idx_facts t
  show V c main_v29 (((cfg1.win 0).blk t).view.emb (ix2 p q)) = V c main_v29 (((cfg1.win 3).blk t).view.emb (ix2 p q))
  refine congrArg (V c main_v29) (funext fun a => Fin.ext ?_)
  match a with
  | ⟨0, _⟩ => show win1_0.index t (0 : Fin 2) * 1000 + 1 * p.val = win1_3.index t (0 : Fin 2) * 1000 + 1 * p.val; omega
  | ⟨1, _⟩ => show win1_0.index t (1 : Fin 2) * 128 + 1 * q.val = win1_3.index t (1 : Fin 2) * 128 + 1 * q.val; omega

/-- The row-factor block at point `t`, read at row `p`, is the factor of the row the output's block puts there. -/
theorem blk1_read (c : Dev nD) (t : Fin cfg1.N) (p : Fin 1000) (q : Fin 128) :
    iblk1 (F := Ideal) V c 1 t (ix2 p (0 : Fin 1))
      = V c main_v15 (ix2 ((((cfg1.win 3).blk t).view.emb (ix2 p q)) 0 : Fin 100000) (0 : Fin 1)) := by
  obtain ⟨e0, e1, e2, e3, e4, e5, e6, e7⟩ := idx_facts t
  show V c main_v15 (((cfg1.win 1).blk t).view.emb (ix2 p (0 : Fin 1))) = _
  refine congrArg (V c main_v15) (funext fun a => Fin.ext ?_)
  match a with
  | ⟨0, _⟩ => show win1_1.index t (0 : Fin 2) * 1000 + 1 * p.val = win1_3.index t (0 : Fin 2) * 1000 + 1 * p.val; omega
  | ⟨1, _⟩ => show win1_1.index t (1 : Fin 2) * 1 + 1 * 0 = 0; omega

/-- The bias block (the whole row) read at column `q` is the bias of the column the output's block puts there. -/
theorem blk2_read (c : Dev nD) (t : Fin cfg1.N) (p : Fin 1000) (q : Fin 128) :
    iblk1 (F := Ideal) V c 2 t (ix2 (0 : Fin 1) q)
      = V c main_v16 (ix2 (0 : Fin 1) ((((cfg1.win 3).blk t).view.emb (ix2 p q)) 1 : Fin 128)) := by
  obtain ⟨e0, e1, e2, e3, e4, e5, e6, e7⟩ := idx_facts t
  show V c main_v16 (((cfg1.win 2).blk t).view.emb (ix2 (0 : Fin 1) q)) = _
  refine congrArg (V c main_v16) (funext fun a => Fin.ext ?_)
  match a with
  | ⟨0, _⟩ => show win1_2.index t (0 : Fin 2) * 1 + 1 * 0 = 0; omega
  | ⟨1, _⟩ => show win1_2.index t (1 : Fin 2) * 128 + 1 * q.val = win1_3.index t (1 : Fin 2) * 128 + 1 * q.val; omega

/-- What point `t` writes back is block `t` of `Spec.act1` of the three arrays as the region finds them. -/
theorem flushed_eq (c : Dev nD) (t : Fin cfg1.N) :
    (dat1 (F := Ideal) V c).flushed 3 t
      = ((cfg1.win 3).blk t).view.read (Elt Ideal) (Spec.act1 (V c main_v29) (V c main_v15) (V c main_v16)) := by
  show (cfg1.win 3).cut (grid1.coords t) ((dat1 (F := Ideal) V c).after 3 t) = _
  rw [after1_3]
  unfold out1_3
  rw [View.canon_unit_zero hz]
  simp only [View.ld_unit_zero (S := S1000x128) hz, View.ld_unit_zero (S := S1000x1) hz, View.ld_unit_zero (S := S1x128) hz]
  funext y
  obtain ⟨p, q, rfl⟩ : ∃ (p : Fin 1000) (q : Fin 128), y = ix2 p q := ⟨y 0, y 1, eq_ix2 y⟩
  show k1_pay1 (F := Ideal) (iblk1 V c 0 t) (iblk1 V c 1 t) (iblk1 V c 2 t) (ix2 p q)
    = Spec.act1 (V c main_v29) (V c main_v15) (V c main_v16) (((cfg1.win 3).blk t).view.emb (ix2 p q))
  refine (pay_apply _ _ _ p q).trans ?_
  rw [blk0_read V c t p q, blk1_read V c t p q, blk2_read V c t p q]
  rfl

/-- An index of the array is in point `t`'s block iff each coordinate is in the block's range on its axis. -/
theorem mem_blk (t : Fin cfg1.N) (i : S100000x128.Idx) :
    i ∈ ((cfg1.win 3).blk t).view.set
      ↔ ∀ a : Fin 2, win1_3.index t a * S1000x128.size a ≤ (i a).val
          ∧ (i a).val < win1_3.index t a * S1000x128.size a + S1000x128.size a := by
  show i ∈ ((View.whole main_v30).slice (win1_3.rect t)).set ↔ _
  rw [View.set_slice_whole, Rect.mem_set_unit]
  exact Iff.rfl

/-- The output's blocks tile the array: row `r` lies in the block of point `r / 1000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 1000, by omega⟩
  have q0 : win1_3.index t (0 : Fin 2) = (i 0).val / 1000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 1000 ≤ (i 0).val ∧ (i 0).val < win1_3.index t (0 : Fin 2) * 1000 + 1000
    omega
  | ⟨1, _⟩ =>
    show win1_3.index t (1 : Fin 2) * 128 ≤ (i 1).val ∧ (i 1).val < win1_3.index t (1 : Fin 2) * 128 + 128
    omega

/-- Region 1 (first finalize): its output array ends as `Spec.act1` of the three arrays it reads. -/
theorem arr1 (c : Dev nD) :
    (dat1 (F := Ideal) V c).arrAt 3 cfg1.N = Spec.act1 (V c main_v29) (V c main_v15) (V c main_v16) :=
  (dat1 (F := Ideal) V c).arrAt_eq_of_cover 3 (Spec.act1 (V c main_v29) (V c main_v15) (V c main_v16))
    (fun t _ => flushed_eq V c t) cover

end Cert.KernelIdeal.Blocks1

end
-- ==== Proof.Blocks2.lean ====
/- Region 2 (second transform): its output array ends as `Spec.lin2` of the three arrays it reads. -/
import proofs.«154651_j18459769438249_1_alg».proof.Proof.Gen.KernelIdeal.Frame
import proofs.«154651_j18459769438249_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

private theorem hz : (![0, 0] : Fin 2 → Nat) = fun _ => 0 := funext fun a => by fin_cases a <;> rfl

/-- Output row `p`, contraction coordinate: the left operand is read at row `p`. -/
private theorem lhs_dot_0 (i : S1000x64.Idx) (q : dot_S1000x128_S128x64_S1000x64_1_0_0_1_n_n.contr.Idx) :
    (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
private theorem lhs_dot_1 (i : S1000x64.Idx) (q : dot_S1000x128_S128x64_S1000x64_1_0_0_1_n_n.contr.Idx) :
    (dot_S1000x128_S128x64_S1000x64_1_0_0_1_n_n.lhsIdx i q 1).val = (q ⟨0, by decide⟩).val :=
  dot_S1000x128_S128x64_S1000x64_1_0_0_1_n_n.lhsIdx_val_of_single rfl i q
private theorem rhs_dot_0 (i : S1000x64.Idx) (q : dot_S1000x128_S128x64_S1000x64_1_0_0_1_n_n.contr.Idx) :
    (dot_S1000x128_S128x64_S1000x64_1_0_0_1_n_n.rhsIdx i q 0).val = (q ⟨0, by decide⟩).val :=
  dot_S1000x128_S128x64_S1000x64_1_0_0_1_n_n.rhsIdx_val_of_single rfl i q
private theorem rhs_dot_1 (i : S1000x64.Idx) (q : dot_S1000x128_S128x64_S1000x64_1_0_0_1_n_n.contr.Idx) :
    (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- The product into the zero accumulator, read at an entry: the row of the left operand against the column of the right. -/
private theorem matmul_apply0 (a : FVec Ideal S1000x128 .bf16) (b : FVec Ideal S128x64 .bf16) (p : Fin 1000) (q : Fin 64) :
    FloatOps.matmul dot_S1000x128_S128x64_S1000x64_1_0_0_1_n_n none a b (constant S1000x64 .f32 0x00000000#32) (ix2 p q)
      = ∑ k : Fin 128, a (ix2 p k) * b (ix2 k q) := by
  rw [Ideal.matmul_constant_zero_apply, ← Equiv.sum_comp (contrEquiv1 dot_S1000x128_S128x64_S1000x64_1_0_0_1_n_n 128 rfl rfl).symm]
  refine Finset.sum_congr rfl fun k _ => ?_
  have hk := contrEquiv1_symm_val dot_S1000x128_S128x64_S1000x64_1_0_0_1_n_n 128 rfl rfl k
  have el : dot_S1000x128_S128x64_S1000x64_1_0_0_1_n_n.lhsIdx (ix2 p q) ((contrEquiv1 dot_S1000x128_S128x64_S1000x64_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1000x128_S128x64_S1000x64_1_0_0_1_n_n.rhsIdx (ix2 p q) ((contrEquiv1 dot_S1000x128_S128x64_S1000x64_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- A column [1000,1] broadcast along the rows of [1000,64], read at an entry: the column's entry of that row. -/
private theorem bcast_col_apply (v : FVec Ideal S1000x1 .f32) (p : Fin 1000) (q : Fin 64) :
    broadcastTo S1000x64 v broadcasts_S1000x1_S1000x64 (ix2 p q) = v (ix2 p (0 : Fin 1)) := by
  refine broadcastTo_apply v broadcasts_S1000x1_S1000x64 (ix2 p q) (ix2 p (0 : Fin 1)) fun a => ?_
  match a with
  | ⟨0, _⟩ => rfl
  | ⟨1, _⟩ => rfl

/-- The body's arithmetic at an entry (the cast of the loaded block to its own shape is the identity). -/
private theorem pay_apply (x0 : Vec Ideal S1000x128 .f32) (x1 : Vec Ideal S128x64 .f32) (x2 : Vec Ideal S1000x1 .f32) (p : Fin 1000) (q : Fin 64) :
    k2_pay1 (F := Ideal) x0 x1 x2 (ix2 p q) = (∑ k : Fin 128, x0 (ix2 p k) * x1 (ix2 k q)) * x2 (ix2 p (0 : Fin 1)) := by
  unfold k2_pay1
  refine (mulf_apply _ _ _).trans ?_
  refine congrArg₂ (· * ·) ?_ ?_
  · refine (matmul_apply0 _ _ p q).trans ?_
    rw [shapeCast_self]
    rfl
  · refine (bcast_col_apply _ p q).trans ?_
    rw [shapeCast_self]

/-- The index maps over the grid: the row-tiled windows move with the output's rows, the weight matrix stays. -/
private theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = win2_3.index t (0 : Fin 2)
    ∧ win2_2.index t (1 : Fin 2) = 0
    ∧ win2_3.index t (0 : Fin 2) = t.val
    ∧ win2_3.index t (1 : Fin 2) = 0 :=
  (by decide +kernel : ∀ t : Fin grid2.N, _)

/-- Row `p` of point `t`'s block is row `1000·t + p` of the array. -/
private abbrev row (t : Fin cfg2.N) (p : Fin 1000) : Fin 100000 :=
  ⟨t.val * 1000 + p.val, by have h1 : t.val < cfg2.N := t.isLt; have h2 : cfg2.N = 100 := N_2; have := p.isLt; omega⟩

/-- Entry (p, q) of the output's block at point `t` is entry (1000·t + p, q) of the output array. -/
private theorem emb3 (t : Fin cfg2.N) (p : Fin 1000) (q : Fin 64) :
    ((cfg2.win 3).blk t).view.emb (ix2 p q) = ix2 (row t p) q := by
  obtain ⟨e0, e1, e2, e3, e4, e5, e6, e7⟩ := idx_facts t
  funext a; apply Fin.ext
  match a with
  | ⟨0, _⟩ => show win2_3.index t (0 : Fin 2) * 1000 + 1 * p.val = t.val * 1000 + p.val; omega
  | ⟨1, _⟩ => show win2_3.index t (1 : Fin 2) * 64 + 1 * q.val = q.val; omega

/-- The input block at point `t` holds the input array's rows `1000·t …`. -/
private theorem read0 (c : Dev nD) (t : Fin cfg2.N) (p : Fin 1000) (k : Fin 128) :
    iblk2 V c 0 t (ix2 p k) = V c main_v30 (ix2 (row t p) k) := by
  obtain ⟨e0, e1, e2, e3, e4, e5, e6, e7⟩ := idx_facts t
  show V c main_v30 (((cfg2.win 0).blk t).view.emb (ix2 p k)) = V c main_v30 (ix2 (row t p) k)
  refine congrArg (V c main_v30) (funext fun a => Fin.ext ?_)
  match a with
  | ⟨0, _⟩ => show win2_0.index t (0 : Fin 2) * 1000 + 1 * p.val = t.val * 1000 + p.val; omega
  | ⟨1, _⟩ => show win2_0.index t (1 : Fin 2) * 128 + 1 * k.val = k.val; omega

/-- The weight block at every point is the whole weight matrix. -/
private theorem read1 (c : Dev nD) (t : Fin cfg2.N) (k : Fin 128) (q : Fin 64) :
    iblk2 V c 1 t (ix2 k q) = V c main_arg5 (ix2 k q) := by
  obtain ⟨e0, e1, e2, e3, e4, e5, e6, e7⟩ := idx_facts t
  show V c main_arg5 (((cfg2.win 1).blk t).view.emb (ix2 k q)) = V c main_arg5 (ix2 k q)
  refine congrArg (V c main_arg5) (funext fun a => Fin.ext ?_)
  match a with
  | ⟨0, _⟩ => show win2_1.index t (0 : Fin 2) * 128 + 1 * k.val = k.val; omega
  | ⟨1, _⟩ => show win2_1.index t (1 : Fin 2) * 64 + 1 * q.val = q.val; omega

/-- The factor block at point `t` holds the factor column's rows `1000·t …`. -/
private theorem read2 (c : Dev nD) (t : Fin cfg2.N) (p : Fin 1000) :
    iblk2 V c 2 t (ix2 p (0 : Fin 1)) = V c main_v7 (ix2 (row t p) (0 : Fin 1)) := by
  obtain ⟨e0, e1, e2, e3, e4, e5, e6, e7⟩ := idx_facts t
  show V c main_v7 (((cfg2.win 2).blk t).view.emb (ix2 p (0 : Fin 1))) = V c main_v7 (ix2 (row t p) (0 : Fin 1))
  refine congrArg (V c main_v7) (funext fun a => Fin.ext ?_)
  match a with
  | ⟨0, _⟩ => show win2_2.index t (0 : Fin 2) * 1000 + 1 * p.val = t.val * 1000 + p.val; omega
  | ⟨1, _⟩ => show win2_2.index t (1 : Fin 2) * 1 + 1 * (0 : Fin 1).val = (0 : Fin 1).val; omega

/-- The closed form at an entry named by its coordinates. -/
private theorem lin2_apply (X : FVec Ideal S100000x128 .f32) (W : FVec Ideal S128x64 .f32) (D : FVec Ideal S100000x1 .f32)
    (r : Fin 100000) (q : Fin 64) :
    Spec.lin2 X W D (ix2 r q) = (∑ k : Fin 128, X (ix2 r k) * W (ix2 k q)) * D (ix2 r (0 : Fin 1)) := rfl

/-- What point `t` writes back is block `t` of the closed form. -/
private theorem flushed_eq (c : Dev nD) (t : Fin cfg2.N) :
    (dat2 (F := Ideal) V c).flushed 3 t = ((cfg2.win 3).blk t).view.read (Elt Ideal) (Spec.lin2 (V c main_v30) (V c main_arg5) (V c main_v7)) := by
  show (cfg2.win 3).cut (grid2.coords t) ((dat2 V c).after 3 t) = _
  rw [after2_3]
  unfold out2_3
  rw [View.canon_unit_zero hz]
  simp only [View.ld_unit_zero (S := S1000x128) hz, View.ld_unit_zero (S := S128x64) hz, View.ld_unit_zero (S := S1000x1) hz]
  funext y
  obtain ⟨p, q, rfl⟩ : ∃ (p : Fin 1000) (q : Fin 64), y = ix2 p q := ⟨y 0, y 1, eq_ix2 y⟩
  show k2_pay1 (F := Ideal) (iblk2 V c 0 t) (iblk2 V c 1 t) (iblk2 V c 2 t) (ix2 p q)
    = Spec.lin2 (V c main_v30) (V c main_arg5) (V c main_v7) (((cfg2.win 3).blk t).view.emb (ix2 p q))
  rw [emb3]
  refine (pay_apply _ _ _ p q).trans ?_
  refine Eq.trans ?_ (lin2_apply _ _ _ (row t p) q).symm
  refine congrArg₂ (· * ·) (Finset.sum_congr rfl fun k _ => ?_) (read2 V c t p)
  exact congrArg₂ (· * ·) (read0 V c t p k) (read1 V c t k q)

/-- An index of the output array is in point `t`'s block iff each coordinate is in the block's range on its axis. -/
private theorem mem_blk (t : Fin cfg2.N) (i : S100000x64.Idx) :
    i ∈ ((cfg2.win 3).blk t).view.set ↔ ∀ a : Fin 2, win2_3.index t a * S1000x64.size a ≤ (i a).val ∧ (i a).val < win2_3.index t a * S1000x64.size a + S1000x64.size a := by
  show i ∈ ((View.whole main_v31).slice (win2_3.rect t)).set ↔ _
  rw [View.set_slice_whole, Rect.mem_set_unit]
  exact Iff.rfl

/-- The blocks tile the output array: row `r` lies in the block of point `r / 1000`. -/
private theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 100 := N_2
  let t : Fin cfg2.N := ⟨(i 0).val / 1000, by omega⟩
  have ht : t.val = (i 0).val / 1000 := rfl
  obtain ⟨e0, e1, e2, e3, e4, e5, e6, e7⟩ := idx_facts t
  refine ⟨t, flush2_3 t, ?_⟩
  rw [mem_blk]
  intro a
  match a with
  | ⟨0, _⟩ => show win2_3.index t (0 : Fin 2) * 1000 ≤ (i 0).val ∧ (i 0).val < win2_3.index t (0 : Fin 2) * 1000 + 1000; omega
  | ⟨1, _⟩ => show win2_3.index t (1 : Fin 2) * 64 ≤ (i 1).val ∧ (i 1).val < win2_3.index t (1 : Fin 2) * 64 + 64; omega

/-- Region 2 (second transform): its output array ends as `Spec.lin2` of the three arrays it reads. -/
theorem arr2 (c : Dev nD) :
    (dat2 (F := Ideal) V c).arrAt 3 cfg2.N = Spec.lin2 (V c main_v30) (V c main_arg5) (V c main_v7) :=
  (dat2 V c).arrAt_eq_of_cover 3 (Spec.lin2 (V c main_v30) (V c main_arg5) (V c main_v7)) (fun t _ => flushed_eq V c t) cover

end Cert.KernelIdeal.Blocks2

end
-- ==== Proof.Blocks3.lean ====
/- Region 3 (second finalize): its output array ends as `Spec.act2` of the three arrays it reads. -/
import proofs.«154651_j18459769438249_1_alg».proof.Proof.Gen.KernelIdeal.Frame
import proofs.«154651_j18459769438249_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offset of a whole-block access, as a constant function. -/
theorem hz : (![0, 0] : Fin 2 → Nat) = fun _ => 0 := funext fun a => by fin_cases a <;> rfl

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at one entry of the block: max(x·d + b, 0), the row factor read at the entry's row and the
    bias at its column. -/
theorem pay_apply (x0 : Vec Ideal S1000x64 .f32) (x1 : Vec Ideal S1000x1 .f32) (x2 : Vec Ideal S1x64 .f32)
    (p : Fin 1000) (q : Fin 64) :
    k3_pay1 (F := Ideal) x0 x1 x2 (ix2 p q)
      = max (x0 (ix2 p q) * x1 (ix2 p (0 : Fin 1)) + x2 (ix2 (0 : Fin 1) q)) (Ideal.ofBits .f32 0x00000000#32) := by
  unfold k3_pay1
  rw [shapeCast_self, shapeCast_self, shapeCast_self]
  show max (x0 (ix2 p q) * broadcastTo S1000x64 x1 broadcasts_S1000x1_S1000x64 (ix2 p q)
      + broadcastTo S1000x64 x2 broadcasts_S1x64_S1000x64 (ix2 p q)) (Ideal.ofBits .f32 0x00000000#32) = _
  rw [broadcastTo_a1_ab_apply x1 broadcasts_S1000x1_S1000x64 p q, broadcastTo_1b_ab_apply x2 broadcasts_S1x64_S1000x64 p q]

/-- The printed index maps, decided over the grid: the row-tiled inputs move with the output's row block, the bias
    row stays at block 0, and the output's row block index stays below 100. -/
theorem idx_facts : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = 0
    ∧ win3_2.index t (1 : Fin 2) = 0
    ∧ win3_3.index t (0 : Fin 2) ≤ 99
    ∧ win3_3.index t (1 : Fin 2) = 0 :=
  (by decide +kernel : ∀ t : Fin grid3.N, _)

/-- Every row block of the output is some point's. -/
theorem idx_onto : ∀ (q0 : Fin 100), ∃ t : Fin cfg3.N, win3_3.index t = ![q0.val, 0] :=
  (by decide +kernel : ∀ (q0 : Fin 100), ∃ t : Fin grid3.N, win3_3.index t = ![q0.val, 0])

/-- The input block of rows at point `t`, read at `(p, q)`, is the array at the entry the output's block puts there. -/
theorem blk0_read (c : Dev nD) (t : Fin cfg3.N) (p : Fin 1000) (q : Fin 64) :
    iblk3 (F := Ideal) V c 0 t (ix2 p q) = V c main_v41 (((cfg3.win 3).blk t).view.emb (ix2 p q)) := by
  obtain ⟨e0, e1, e2, e3, e4, e5, e6, e7⟩ := idx_facts t
  show V c main_v41 (((cfg3.win 0).blk t).view.emb (ix2 p q)) = V c main_v41 (((cfg3.win 3).blk t).view.emb (ix2 p q))
  refine congrArg (V c main_v41) (funext fun a => Fin.ext ?_)
  match a with
  | ⟨0, _⟩ => show win3_0.index t (0 : Fin 2) * 1000 + 1 * p.val = win3_3.index t (0 : Fin 2) * 1000 + 1 * p.val; omega
  | ⟨1, _⟩ => show win3_0.index t (1 : Fin 2) * 64 + 1 * q.val = win3_3.index t (1 : Fin 2) * 64 + 1 * q.val; omega

/-- The row-factor block at point `t`, read at row `p`, is the factor of the row the output's block puts there. -/
theorem blk1_read (c : Dev nD) (t : Fin cfg3.N) (p : Fin 1000) (q : Fin 64) :
    iblk3 (F := Ideal) V c 1 t (ix2 p (0 : Fin 1))
      = V c main_v15 (ix2 ((((cfg3.win 3).blk t).view.emb (ix2 p q)) 0 : Fin 100000) (0 : Fin 1)) := by
  obtain ⟨e0, e1, e2, e3, e4, e5, e6, e7⟩ := idx_facts t
  show V c main_v15 (((cfg3.win 1).blk t).view.emb (ix2 p (0 : Fin 1))) = _
  refine congrArg (V c main_v15) (funext fun a => Fin.ext ?_)
  match a with
  | ⟨0, _⟩ => show win3_1.index t (0 : Fin 2) * 1000 + 1 * p.val = win3_3.index t (0 : Fin 2) * 1000 + 1 * p.val; omega
  | ⟨1, _⟩ => show win3_1.index t (1 : Fin 2) * 1 + 1 * 0 = 0; omega

/-- The bias block (the whole row) read at column `q` is the bias of the column the output's block puts there. -/
theorem blk2_read (c : Dev nD) (t : Fin cfg3.N) (p : Fin 1000) (q : Fin 64) :
    iblk3 (F := Ideal) V c 2 t (ix2 (0 : Fin 1) q)
      = V c main_v17 (ix2 (0 : Fin 1) ((((cfg3.win 3).blk t).view.emb (ix2 p q)) 1 : Fin 64)) := by
  obtain ⟨e0, e1, e2, e3, e4, e5, e6, e7⟩ := idx_facts t
  show V c main_v17 (((cfg3.win 2).blk t).view.emb (ix2 (0 : Fin 1) q)) = _
  refine congrArg (V c main_v17) (funext fun a => Fin.ext ?_)
  match a with
  | ⟨0, _⟩ => show win3_2.index t (0 : Fin 2) * 1 + 1 * 0 = 0; omega
  | ⟨1, _⟩ => show win3_2.index t (1 : Fin 2) * 64 + 1 * q.val = win3_3.index t (1 : Fin 2) * 64 + 1 * q.val; omega

/-- What point `t` writes back is block `t` of `Spec.act2` of the three arrays as the region finds them. -/
theorem flushed_eq (c : Dev nD) (t : Fin cfg3.N) :
    (dat3 (F := Ideal) V c).flushed 3 t
      = ((cfg3.win 3).blk t).view.read (Elt Ideal) (Spec.act2 (V c main_v41) (V c main_v15) (V c main_v17)) := by
  show (cfg3.win 3).cut (grid3.coords t) ((dat3 (F := Ideal) V c).after 3 t) = _
  rw [after3_3]
  unfold out3_3
  rw [View.canon_unit_zero hz]
  simp only [View.ld_unit_zero (S := S1000x64) hz, View.ld_unit_zero (S := S1000x1) hz, View.ld_unit_zero (S := S1x64) hz]
  funext y
  obtain ⟨p, q, rfl⟩ : ∃ (p : Fin 1000) (q : Fin 64), y = ix2 p q := ⟨y 0, y 1, eq_ix2 y⟩
  show k3_pay1 (F := Ideal) (iblk3 V c 0 t) (iblk3 V c 1 t) (iblk3 V c 2 t) (ix2 p q)
    = Spec.act2 (V c main_v41) (V c main_v15) (V c main_v17) (((cfg3.win 3).blk t).view.emb (ix2 p q))
  refine (pay_apply _ _ _ p q).trans ?_
  rw [blk0_read V c t p q, blk1_read V c t p q, blk2_read V c t p q]
  rfl

/-- An index of the array is in point `t`'s block iff each coordinate is in the block's range on its axis. -/
theorem mem_blk (t : Fin cfg3.N) (i : S100000x64.Idx) :
    i ∈ ((cfg3.win 3).blk t).view.set
      ↔ ∀ a : Fin 2, win3_3.index t a * S1000x64.size a ≤ (i a).val
          ∧ (i a).val < win3_3.index t a * S1000x64.size a + S1000x64.size a := by
  show i ∈ ((View.whole main_v42).slice (win3_3.rect t)).set ↔ _
  rw [View.set_slice_whole, Rect.mem_set_unit]
  exact Iff.rfl

/-- The output's blocks tile the array: row `r` lies in the block of point `r / 1000`. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := idx_onto ⟨(i 0).val / 1000, by omega⟩
  have q0 : win3_3.index t (0 : Fin 2) = (i 0).val / 1000 := congrFun ht 0
  have q1 : win3_3.index t (1 : Fin 2) = 0 := congrFun ht 1
  refine ⟨t, flush3_3 t, ?_⟩
  rw [mem_blk]
  intro a
  match a with
  | ⟨0, _⟩ =>
    show win3_3.index t (0 : Fin 2) * 1000 ≤ (i 0).val ∧ (i 0).val < win3_3.index t (0 : Fin 2) * 1000 + 1000
    omega
  | ⟨1, _⟩ =>
    show win3_3.index t (1 : Fin 2) * 64 ≤ (i 1).val ∧ (i 1).val < win3_3.index t (1 : Fin 2) * 64 + 64
    omega

/-- Region 3 (second finalize): its output array ends as `Spec.act2` of the three arrays it reads. -/
theorem arr3 (c : Dev nD) :
    (dat3 (F := Ideal) V c).arrAt 3 cfg3.N = Spec.act2 (V c main_v41) (V c main_v15) (V c main_v17) :=
  (dat3 (F := Ideal) V c).arrAt_eq_of_cover 3 (Spec.act2 (V c main_v41) (V c main_v15) (V c main_v17))
    (fun t _ => flushed_eq V c t) cover

end Cert.KernelIdeal.Blocks3

end
-- ==== Proof.Blocks4.lean ====
/- Region 4 (class scores and log-softmax): its output array ends as `Spec.head` of the three arrays it reads. -/
import proofs.«154651_j18459769438249_1_alg».proof.Proof.Gen.KernelIdeal.Frame
import proofs.«154651_j18459769438249_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The class scores of one block: the contraction over the 64 hidden features plus the bias row -/

/-- The left operand's row coordinate at an output entry is the entry's row. -/
theorem lhs_scores_0 (i : S1000x200.Idx) (q : dot_S1000x64_S64x200_S1000x200_1_0_0_1_n_n.contr.Idx) :
    (dot_S1000x64_S64x200_S1000x200_1_0_0_1_n_n.lhsIdx i q 0).val = (i 0).val := by
  unfold DotDims.lhsIdx
  rw [dif_neg (show ¬(0 : Fin S1000x64.rank) ∈ dot_S1000x64_S64x200_S1000x200_1_0_0_1_n_n.lhsBatch by decide), dif_pos (show (0 : Fin S1000x64.rank) ∈ dot_S1000x64_S64x200_S1000x200_1_0_0_1_n_n.lhsNonContracting by decide)]
  rfl
/-- The left operand's column coordinate is the contracted feature. -/
theorem lhs_scores_1 (i : S1000x200.Idx) (q : dot_S1000x64_S64x200_S1000x200_1_0_0_1_n_n.contr.Idx) :
    (dot_S1000x64_S64x200_S1000x200_1_0_0_1_n_n.lhsIdx i q 1).val = (q ⟨0, by decide⟩).val :=
  dot_S1000x64_S64x200_S1000x200_1_0_0_1_n_n.lhsIdx_val_of_single rfl i q
/-- The right operand's row coordinate is the contracted feature. -/
theorem rhs_scores_0 (i : S1000x200.Idx) (q : dot_S1000x64_S64x200_S1000x200_1_0_0_1_n_n.contr.Idx) :
    (dot_S1000x64_S64x200_S1000x200_1_0_0_1_n_n.rhsIdx i q 0).val = (q ⟨0, by decide⟩).val :=
  dot_S1000x64_S64x200_S1000x200_1_0_0_1_n_n.rhsIdx_val_of_single rfl i q
/-- The right operand's column coordinate at an output entry is the entry's class. -/
theorem rhs_scores_1 (i : S1000x200.Idx) (q : dot_S1000x64_S64x200_S1000x200_1_0_0_1_n_n.contr.Idx) :
    (dot_S1000x64_S64x200_S1000x200_1_0_0_1_n_n.rhsIdx i q 1).val = (i 1).val := by
  unfold DotDims.rhsIdx
  rw [dif_neg (show ¬(1 : Fin S64x200.rank) ∈ dot_S1000x64_S64x200_S1000x200_1_0_0_1_n_n.rhsBatch by decide), dif_pos (show (1 : Fin S64x200.rank) ∈ dot_S1000x64_S64x200_S1000x200_1_0_0_1_n_n.rhsNonContracting by decide)]
  rfl

/-- The block's class scores: hidden rows times the weight matrix, plus the bias row under every row. -/
def scores (x0 : Vec Ideal S1000x64 .f32) (x1 : Vec Ideal S64x200 .f32) (x2 : Vec Ideal S1x200 .f32) : FVec Ideal S1000x200 .f32 :=
  addf
    (matmul dot_S1000x64_S64x200_S1000x200_1_0_0_1_n_n none
      (truncf .bf16 (shapeCast S1000x64 x0 shapeCasts_S1000x64_S1000x64) bitsLt_bf16_f32)
      (truncf .bf16 x1 bitsLt_bf16_f32) (constant S1000x200 .f32 0x00000000#32))
    (broadcastTo S1000x200 (shapeCast S1x200 x2 shapeCasts_S1x200_S1x200) broadcasts_S1x200_S1000x200)

/-- Entry (p, q) of the class scores is ∑ₖ x0[p,k]·x1[k,q] + x2[0,q]. -/
theorem scores_apply (x0 : Vec Ideal S1000x64 .f32) (x1 : Vec Ideal S64x200 .f32) (x2 : Vec Ideal S1x200 .f32)
    (p : Fin 1000) (q : Fin 200) :
    scores x0 x1 x2 (ix2 p q) = (∑ k : Fin 64, x0 (ix2 p k) * x1 (ix2 k q)) + x2 (ix2 (0 : Fin 1) q) := by
  unfold scores
  rw [addf_apply, shapeCast_self, shapeCast_self, broadcastTo_1b_ab_apply]
  refine congrArg (· + x2 (ix2 (0 : Fin 1) q)) ?_
  refine (Ideal.matmul_constant_zero_apply _ none _ _ (ix2 p q)).trans ?_
  rw [← Equiv.sum_comp (contrEquiv1 dot_S1000x64_S64x200_S1000x200_1_0_0_1_n_n 64 rfl rfl).symm]
  refine Finset.sum_congr rfl fun k _ => ?_
  have hk := contrEquiv1_symm_val dot_S1000x64_S64x200_S1000x200_1_0_0_1_n_n 64 rfl rfl k
  have el : dot_S1000x64_S64x200_S1000x200_1_0_0_1_n_n.lhsIdx (ix2 p q) ((contrEquiv1 dot_S1000x64_S64x200_S1000x200_1_0_0_1_n_n 64 rfl rfl).symm k) = ix2 p k := funext fun a => Fin.ext (by
    match a with
    | ⟨0, _⟩ => exact lhs_scores_0 _ _
    | ⟨1, _⟩ => exact (lhs_scores_1 _ _).trans hk)
  have er : dot_S1000x64_S64x200_S1000x200_1_0_0_1_n_n.rhsIdx (ix2 p q) ((contrEquiv1 dot_S1000x64_S64x200_S1000x200_1_0_0_1_n_n 64 rfl rfl).symm k) = ix2 k q := funext fun a => Fin.ext (by
    match a with
    | ⟨0, _⟩ => exact (rhs_scores_0 _ _).trans hk
    | ⟨1, _⟩ => exact rhs_scores_1 _ _)
  rw [truncf_apply, truncf_apply, el, er]

/-! ## A column vector made from a vector, and broadcast along the rows -/

/-- An `[a]` vector cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row quantities: a row's maximum and the logarithm of its exponential sum -/

/-- The maximum of each row of a block, folded from the printed initial word. -/
def rowMaxB (L : FVec Ideal S1000x200 .f32) : FVec Ideal S1000 .f32 :=
  multiReduction (F := Ideal) .maximumf [1] S1000 L 0xFF800000#32 reduces_S1000x200_S1000 (.inl rfl) rfl

/-- Row `p`'s maximum is the fold of `max` over the row's 200 entries. -/
theorem rowMaxB_apply (L : FVec Ideal S1000x200 .f32) (p : Fin 1000) :
    rowMaxB L (ix1 p) = (Finset.univ : Finset (Fin 200)).fold max (Ideal.ofBits .f32 0xFF800000#32) fun k => L (ix2 p k) := by
  unfold rowMaxB
  refine (Ideal.multiReduction_maximumf_single L _ reduces_S1000x200_S1000 (.inl rfl) rfl (ix1 p)).trans ?_
  have e : (L ∘ reduces_S1000x200_S1000.lift (ix1 p)) = fun k : Fin 200 => L (ix2 p k) :=
    funext fun k => congrArg L (funext fun a => Fin.ext (by
      match a with
      | ⟨0, _⟩ => rfl
      | ⟨1, _⟩ => rfl))
  exact congrArg (fun f : Fin 200 → Ideal .f32 => (Finset.univ : Finset (Fin 200)).fold max (Ideal.ofBits .f32 0xFF800000#32) f) e

/-- The scores with each row's maximum taken off. -/
def shifted (L : FVec Ideal S1000x200 .f32) : FVec Ideal S1000x200 .f32 :=
  subf L (broadcastTo S1000x200 (shapeCast S1000x1 (rowMaxB L) shapeCasts_S1000_S1000x1) broadcasts_S1000x1_S1000x200)

theorem shifted_apply (L : FVec Ideal S1000x200 .f32) (p : Fin 1000) (q : Fin 200) :
    shifted L (ix2 p q) = L (ix2 p q) - (Finset.univ : Finset (Fin 200)).fold max (Ideal.ofBits .f32 0xFF800000#32) fun k => L (ix2 p k) := by
  unfold shifted
  rw [subf_apply, broadcastTo_a1_ab_apply, shapeCast_a_a1_apply, rowMaxB_apply]

/-- The logarithm of each row's sum of exponentials, as a column. -/
def logSumExp (s : FVec Ideal S1000x200 .f32) : FVec Ideal S1000x1 .f32 :=
  log (shapeCast S1000x1
    (multiReduction (F := Ideal) .add [1] S1000 (exp s) 0x00000000#32 reduces_S1000x200_S1000 (.inl rfl) rfl)
    shapeCasts_S1000_S1000x1)

theorem logSumExp_apply (s : FVec Ideal S1000x200 .f32) (p : Fin 1000) (u : Fin 1) :
    logSumExp s (ix2 p u) = Ideal.log (∑ k : Fin 200, Ideal.exp (s (ix2 p k))) := by
  unfold logSumExp
  show Ideal.log (shapeCast S1000x1 _ shapeCasts_S1000_S1000x1 (ix2 p u)) = _
  rw [shapeCast_a_a1_apply]
  refine congrArg Ideal.log ?_
  refine (Ideal.multiReduction_add_single (exp s) _ reduces_S1000x200_S1000 (.inl rfl) rfl (ix1 p)).trans ?_
  refine Finset.sum_congr rfl fun k _ => ?_
  show Ideal.exp (s (reduces_S1000x200_S1000.lift (ix1 p) k)) = _
  refine congrArg (fun i => Ideal.exp (s i)) (funext fun a => Fin.ext (by
    match a with
    | ⟨0, _⟩ => rfl
    | ⟨1, _⟩ => rfl))

/-! ## The payload at an entry -/

/-- The payload is the shifted scores less the broadcast column of log-sums. -/
theorem pay_eq (x0 : Vec Ideal S1000x64 .f32) (x1 : Vec Ideal S64x200 .f32) (x2 : Vec Ideal S1x200 .f32) :
    k4_pay1 (F := Ideal) x0 x1 x2
      = subf (shifted (scores x0 x1 x2))
          (broadcastTo S1000x200 (logSumExp (shifted (scores x0 x1 x2))) broadcasts_S1000x1_S1000x200) := rfl

/-- Entry (p, q) of the payload: the log-softmax of row `p` of the block's scores at class `q`. -/
theorem pay_apply (x0 : Vec Ideal S1000x64 .f32) (x1 : Vec Ideal S64x200 .f32) (x2 : Vec Ideal S1x200 .f32)
    (p : Fin 1000) (q : Fin 200) :
    k4_pay1 (F := Ideal) x0 x1 x2 (ix2 p q)
      = (scores x0 x1 x2 (ix2 p q)
          - (Finset.univ : Finset (Fin 200)).fold max (Ideal.ofBits .f32 0xFF800000#32) fun k => scores x0 x1 x2 (ix2 p k))
        - Ideal.log (∑ j : Fin 200, Ideal.exp (scores x0 x1 x2 (ix2 p j)
          - (Finset.univ : Finset (Fin 200)).fold max (Ideal.ofBits .f32 0xFF800000#32) fun k => scores x0 x1 x2 (ix2 p k))) := by
  rw [pay_eq, subf_apply, broadcastTo_a1_ab_apply, logSumExp_apply, shifted_apply]
  refine congrArg (fun f : Fin 200 → Ideal .f32 => _ - Ideal.log (∑ j : Fin 200, Ideal.exp (f j))) (funext fun j => shifted_apply _ p j)

/-! ## One row's log-softmax, the form both sides take -/

/-- Log-softmax of one row of 200 scores, at class `q`. -/
def rowLogSoftmax (g : Fin 200 → Ideal .f32) (q : Fin 200) : Ideal .f32 :=
  (g q - (Finset.univ : Finset (Fin 200)).fold max (Ideal.ofBits .f32 0xFF800000#32) g)
    - Ideal.log (∑ j : Fin 200, Ideal.exp (g j - (Finset.univ : Finset (Fin 200)).fold max (Ideal.ofBits .f32 0xFF800000#32) g))

/-- The payload at (p, q) is the log-softmax of row `p` of the block's scores. -/
theorem pay_row (x0 : Vec Ideal S1000x64 .f32) (x1 : Vec Ideal S64x200 .f32) (x2 : Vec Ideal S1x200 .f32)
    (p : Fin 1000) (q : Fin 200) :
    k4_pay1 (F := Ideal) x0 x1 x2 (ix2 p q) = rowLogSoftmax (fun k => scores x0 x1 x2 (ix2 p k)) q :=
  pay_apply x0 x1 x2 p q

/-- The array-level function at (r, q) is the log-softmax of row `r` of the array's scores. -/
theorem head_row (H : FVec Ideal S100000x64 .f32) (W : FVec Ideal S64x200 .f32) (B : FVec Ideal S1x200 .f32)
    (r : Fin 100000) (q : Fin 200) :
    Spec.head H W B (ix2 r q) = rowLogSoftmax (fun k => Spec.logits H W B (ix2 r k)) q := rfl

/-- The array's scores at (r, j). -/
theorem logits_apply (H : FVec Ideal S100000x64 .f32) (W : FVec Ideal S64x200 .f32) (B : FVec Ideal S1x200 .f32)
    (r : Fin 100000) (j : Fin 200) :
    Spec.logits H W B (ix2 r j) = (∑ k : Fin 64, H (ix2 r k) * W (ix2 k j)) + B (ix2 (0 : Fin 1) j) := rfl

/-! ## The index maps, decided over the grid -/

theorem hz : (![0, 0] : Fin 2 → Nat) = fun _ => 0 := funext fun a => by fin_cases a <;> rfl

/-- The hidden rows' window moves with the output's along the rows; the weight matrix and the bias row stay at block
    (0, 0); the output's block row is the point's number and its block column is 0. -/
theorem idx_facts : ∀ t : Fin cfg4.N,
    win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-! ## The input blocks, read where the output's block says -/

/-- The hidden rows' block at point `t`. -/
abbrev hblk (c : Dev nD) (t : Fin cfg4.N) : Vec Ideal S1000x64 .f32 := iblk4 V c 0 t
/-- The weight matrix as point `t` sees it. -/
abbrev wblk (c : Dev nD) (t : Fin cfg4.N) : Vec Ideal S64x200 .f32 := iblk4 V c 1 t
/-- The bias row as point `t` sees it. -/
abbrev bblk (c : Dev nD) (t : Fin cfg4.N) : Vec Ideal S1x200 .f32 := iblk4 V c 2 t

/-- Row `p` of the hidden block at point `t` is row `1000·t + p` of the array. -/
theorem hblk_apply (c : Dev nD) (t : Fin cfg4.N) (p : Fin 1000) (k : Fin 64) (r : Fin 100000)
    (hr : r.val = win4_3.index t (0 : Fin 2) * 1000 + p.val) :
    hblk V c t (ix2 p k) = (V c main_v42 : S100000x64.Idx → Ideal .f32) (ix2 r k) := by
  obtain ⟨e0, e1, -, -, -, -, -, -⟩ := idx_facts t
  show V c main_v42 (((cfg4.win 0).blk t).view.emb (ix2 p k)) = V c main_v42 (ix2 r k)
  have h : ((cfg4.win 0).blk t).view.emb (ix2 p k) = ix2 r k := by
    funext a; apply Fin.ext
    match a with
    | ⟨0, _⟩ => show win4_0.index t (0 : Fin 2) * 1000 + 1 * p.val = r.val; omega
    | ⟨1, _⟩ => show win4_0.index t (1 : Fin 2) * 64 + 1 * k.val = k.val; omega
  rw [h]

/-- The weight block is the whole weight matrix. -/
theorem wblk_apply (c : Dev nD) (t : Fin cfg4.N) (k : Fin 64) (j : Fin 200) :
    wblk V c t (ix2 k j) = (V c main_arg7 : S64x200.Idx → Ideal .f32) (ix2 k j) := by
  obtain ⟨-, -, e2, e3, -, -, -, -⟩ := idx_facts t
  show V c main_arg7 (((cfg4.win 1).blk t).view.emb (ix2 k j)) = V c main_arg7 (ix2 k j)
  have h : ((cfg4.win 1).blk t).view.emb (ix2 k j) = ix2 k j := by
    funext a; apply Fin.ext
    match a with
    | ⟨0, _⟩ => show win4_1.index t (0 : Fin 2) * 64 + 1 * k.val = k.val; omega
    | ⟨1, _⟩ => show win4_1.index t (1 : Fin 2) * 200 + 1 * j.val = j.val; omega
  rw [h]

/-- The bias block is the whole bias row. -/
theorem bblk_apply (c : Dev nD) (t : Fin cfg4.N) (j : Fin 200) :
    bblk V c t (ix2 (0 : Fin 1) j) = (V c main_v18 : S1x200.Idx → Ideal .f32) (ix2 (0 : Fin 1) j) := by
  obtain ⟨-, -, -, -, e4, e5, -, -⟩ := idx_facts t
  show V c main_v18 (((cfg4.win 2).blk t).view.emb (ix2 (0 : Fin 1) j)) = V c main_v18 (ix2 (0 : Fin 1) j)
  have h : ((cfg4.win 2).blk t).view.emb (ix2 (0 : Fin 1) j) = ix2 (0 : Fin 1) j := by
    funext a; apply Fin.ext
    match a with
    | ⟨0, _⟩ => show win4_2.index t (0 : Fin 2) * 1 + 1 * 0 = 0; omega
    | ⟨1, _⟩ => show win4_2.index t (1 : Fin 2) * 200 + 1 * j.val = j.val; omega
  rw [h]

/-- Row `p` of the block's scores at point `t` is row `1000·t + p` of the array's scores. -/
theorem scores_blk (c : Dev nD) (t : Fin cfg4.N) (p : Fin 1000) (j : Fin 200) (r : Fin 100000)
    (hr : r.val = win4_3.index t (0 : Fin 2) * 1000 + p.val) :
    scores (hblk V c t) (wblk V c t) (bblk V c t) (ix2 p j)
      = Spec.logits (V c main_v42) (V c main_arg7) (V c main_v18) (ix2 r j) := by
  rw [scores_apply, logits_apply, bblk_apply]
  refine congrArg₂ (· + ·) (Finset.sum_congr rfl fun k _ => ?_) rfl
  rw [hblk_apply V c t p k r hr, wblk_apply]

/-! ## What a point writes back, and the blocks' cover of the array -/

/-- Point `t` writes back block `t` of the log-softmax of the array's scores. -/
theorem flushed_eq (c : Dev nD) (t : Fin cfg4.N) :
    (dat4 (F := Ideal) V c).flushed 3 t
      = ((cfg4.win 3).blk t).view.read (Elt Ideal) (Spec.head (V c main_v42) (V c main_arg7) (V c main_v18)) := by
  show (cfg4.win 3).cut (grid4.coords t) ((dat4 (F := Ideal) V c).after 3 t) = _
  rw [after4_3]
  unfold out4_3
  rw [View.canon_unit_zero hz]
  simp only [View.ld_unit_zero (S := S1000x64) hz, View.ld_unit_zero (S := S64x200) hz, View.ld_unit_zero (S := S1x200) hz]
  funext y
  obtain ⟨p, q, rfl⟩ : ∃ (p : Fin 1000) (q : Fin 200), y = ix2 p q := ⟨y 0, y 1, eq_ix2 y⟩
  show k4_pay1 (F := Ideal) (hblk V c t) (wblk V c t) (bblk V c t) (ix2 p q)
    = Spec.head (V c main_v42) (V c main_arg7) (V c main_v18) (((cfg4.win 3).blk t).view.emb (ix2 p q))
  obtain ⟨-, -, -, -, -, -, e6, e7⟩ := idx_facts t
  have hN : cfg4.N = 100 := N_4
  have ht : t.val < 100 := by have := t.isLt; omega
  have hp : p.val < 1000 := p.isLt
  have hI : ((cfg4.win 3).blk t).view.emb (ix2 p q)
      = ix2 (⟨win4_3.index t (0 : Fin 2) * 1000 + p.val, by omega⟩ : Fin 100000) q := by
    funext a; apply Fin.ext
    match a with
    | ⟨0, _⟩ => show win4_3.index t (0 : Fin 2) * 1000 + 1 * p.val = win4_3.index t (0 : Fin 2) * 1000 + p.val; omega
    | ⟨1, _⟩ => show win4_3.index t (1 : Fin 2) * 200 + 1 * q.val = q.val; omega
  rw [hI, head_row, pay_row]
  exact congrArg (fun g => rowLogSoftmax g q) (funext fun k => scores_blk V c t p k _ rfl)

/-- An index of the array is in point `t`'s block iff each coordinate is in the block's range on its axis. -/
theorem mem_blk (t : Fin cfg4.N) (i : S100000x200.Idx) :
    i ∈ ((cfg4.win 3).blk t).view.set ↔ ∀ a : Fin 2, win4_3.index t a * S1000x200.size a ≤ (i a).val ∧ (i a).val < win4_3.index t a * S1000x200.size a + S1000x200.size a := by
  show i ∈ ((View.whole main_v43).slice (win4_3.rect t)).set ↔ _
  rw [View.set_slice_whole, Rect.mem_set_unit]
  exact Iff.rfl

/-- Every entry of the array lies in the block of the point its row falls to: row `r` in point `r / 1000`. -/
theorem cover (i : S100000x200.Idx) :
    ∃ t : Fin cfg4.N, (cfg4.win 3).flush t = true ∧ i ∈ ((cfg4.win 3).blk t).view.set := by
  have hN : cfg4.N = 100 := N_4
  have hi0 : (i 0).val < 100000 := idx2_lt0 i
  have hi1 : (i 1).val < 200 := idx2_lt1 i
  have hlt : (i 0).val / 1000 < cfg4.N := by rw [hN]; omega
  obtain ⟨-, -, -, -, -, -, e6, e7⟩ := idx_facts ⟨(i 0).val / 1000, hlt⟩
  have e6' : win4_3.index ⟨(i 0).val / 1000, hlt⟩ (0 : Fin 2) = (i 0).val / 1000 := e6
  refine ⟨⟨(i 0).val / 1000, hlt⟩, flush4_3 _, ?_⟩
  rw [mem_blk]
  intro a
  match a with
  | ⟨0, _⟩ =>
    show win4_3.index ⟨(i 0).val / 1000, hlt⟩ (0 : Fin 2) * 1000 ≤ (i 0).val
      ∧ (i 0).val < win4_3.index ⟨(i 0).val / 1000, hlt⟩ (0 : Fin 2) * 1000 + 1000
    omega
  | ⟨1, _⟩ =>
    show win4_3.index ⟨(i 0).val / 1000, hlt⟩ (1 : Fin 2) * 200 ≤ (i 1).val
      ∧ (i 1).val < win4_3.index ⟨(i 0).val / 1000, hlt⟩ (1 : Fin 2) * 200 + 200
    omega

/-- Region 4 (class scores and log-softmax): its output array ends as `Spec.head` of the three arrays it reads. -/
theorem arr4 (c : Dev nD) :
    (dat4 (F := Ideal) V c).arrAt 3 cfg4.N = Spec.head (V c main_v42) (V c main_arg7) (V c main_v18) :=
  (dat4 (F := Ideal) V c).arrAt_eq_of_cover 3 (Spec.head (V c main_v42) (V c main_arg7) (V c main_v18))
    (fun t _ => flushed_eq V c t) (fun i => cover i)

end Cert.KernelIdeal.Blocks4

end
-- ==== Proof.BridgeLin.lean ====
/- The two transform kernels' arrays are the reference's scaled linear layers: the reference multiplies the whole
   product x·W by the per-node factor broadcast along the row. -/
import proofs.«154651_j18459769438249_1_alg».proof.Proof.Spec
import proofs.«154651_j18459769438249_1_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.BridgeLin

open Idealize.ShloMosaic Idealize.ShloMosaic.TcCoe Idealize.ShloMosaic.ValueIdx
open Cert.ReferenceIdeal Cert.ReferenceIdeal.ReadP

variable (x0 : (⟨S100000x256, .f32⟩ : BufTy).Contents (Elt Ideal)) (x1 x2 : (⟨S1700000, .i32⟩ : BufTy).Contents (Elt Ideal))
  (x3 : (⟨S256x128, .f32⟩ : BufTy).Contents (Elt Ideal)) (x4 : (⟨S128, .f32⟩ : BufTy).Contents (Elt Ideal))
  (x5 : (⟨S128x64, .f32⟩ : BufTy).Contents (Elt Ideal)) (x6 : (⟨S64, .f32⟩ : BufTy).Contents (Elt Ideal))
  (x7 : (⟨S64x200, .f32⟩ : BufTy).Contents (Elt Ideal)) (x8 : (⟨S200, .f32⟩ : BufTy).Contents (Elt Ideal))

/-- Layer 1's product reads its left operand at (r, k): row r of the features, contraction position k. -/
private theorem lidx0 (r : Fin 100000) (j : Fin 128) (k : Fin 256) :
    lidx_main_v0 (ix2 r j) k = ix2 r k :=
  funext fun a => Fin.ext (by match a with | ⟨0, _⟩ => rfl | ⟨1, _⟩ => rfl)

/-- Layer 1's product reads its right operand at (k, j): contraction position k, output column j. -/
private theorem ridx0 (r : Fin 100000) (j : Fin 128) (k : Fin 256) :
    ridx_main_v0 (ix2 r j) k = ix2 k j :=
  funext fun a => Fin.ext (by match a with | ⟨0, _⟩ => rfl | ⟨1, _⟩ => rfl)

/-- The two broadcasts [100000] → [100000,1] → [100000,128] read the per-node factor at node r, whatever the column. -/
private theorem idx98 (r : Fin 100000) (j : Fin 128) :
    idx_main_v8 (idx_main_v9 (ix2 r j)) = ix1 r :=
  funext fun a => Fin.ext (by match a with | ⟨0, _⟩ => rfl)

/-- Layer 2's product reads its left operand at (r, k). -/
private theorem lidx35 (r : Fin 100000) (j : Fin 64) (k : Fin 128) :
    lidx_main_v35 (ix2 r j) k = ix2 r k :=
  funext fun a => Fin.ext (by match a with | ⟨0, _⟩ => rfl | ⟨1, _⟩ => rfl)

/-- Layer 2's product reads its right operand at (k, j). -/
private theorem ridx35 (r : Fin 100000) (j : Fin 64) (k : Fin 128) :
    ridx_main_v35 (ix2 r j) k = ix2 k j :=
  funext fun a => Fin.ext (by match a with | ⟨0, _⟩ => rfl | ⟨1, _⟩ => rfl)

/-- The two broadcasts [100000] → [100000,1] → [100000,64] read the per-node factor at node r, whatever the column. -/
private theorem idx4344 (r : Fin 100000) (j : Fin 64) :
    idx_main_v43 (idx_main_v44 (ix2 r j)) = ix1 r :=
  funext fun a => Fin.ext (by match a with | ⟨0, _⟩ => rfl)

/-- Layer 1: with D the per-node factor as a column, `Spec.lin1` is the reference's stage `%10`. -/
theorem lin1_eq (D : FVec Ideal S100000x1 .f32)
    (hD : ∀ r : Fin 100000, D (ix2 r (0 : Fin 1)) = val_main_v7 (F := Ideal) x1 (ix1 r)) :
    Cert.KernelIdeal.Spec.lin1 x0 x3 D = val_main_v10 (F := Ideal) x0 x1 x3 := by
  funext i
  obtain ⟨r, j, rfl⟩ : ∃ (r : Fin 100000) (j : Fin 128), i = ix2 r j := ⟨i 0, i 1, eq_ix2 i⟩
  -- the reference at (r, j): (∑ₖ x[r,k]·W[k,j]) · factor[r], the factor read through its two broadcasts
  rw [val_main_v10_apply, val_main_v0_apply, val_main_v9_apply, val_main_v8_apply, idx98, ← hD r]
  simp only [Cert.KernelIdeal.Spec.lin1, lidx0, ridx0, Ideal.mulf_def]

/-- Layer 2: `Spec.lin2` of the first layer's activations is the reference's stage `%45`. -/
theorem lin2_eq (X : FVec Ideal S100000x128 .f32) (D : FVec Ideal S100000x1 .f32)
    (hX : X = val_main_v34 (F := Ideal) x0 x1 x2 x3 x4)
    (hD : ∀ r : Fin 100000, D (ix2 r (0 : Fin 1)) = val_main_v42 (F := Ideal) x1 (ix1 r)) :
    Cert.KernelIdeal.Spec.lin2 X x5 D = val_main_v45 (F := Ideal) x0 x1 x2 x3 x4 x5 := by
  subst hX
  funext i
  obtain ⟨r, j, rfl⟩ : ∃ (r : Fin 100000) (j : Fin 64), i = ix2 r j := ⟨i 0, i 1, eq_ix2 i⟩
  -- the reference at (r, j): (∑ₖ h[r,k]·W[k,j]) · factor[r], with h the first layer's activations
  rw [val_main_v45_apply, val_main_v35_apply, val_main_v44_apply, val_main_v43_apply, idx4344, ← hD r]
  simp only [Cert.KernelIdeal.Spec.lin2, lidx35, ridx35, Ideal.mulf_def]

end Cert.BridgeLin

end
-- ==== Proof.BridgeAct.lean ====
/- The two finalize kernels' arrays are the reference's scale, bias and relu of the aggregated messages. -/
import proofs.«154651_j18459769438249_1_alg».proof.Proof.Spec
import proofs.«154651_j18459769438249_1_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.BridgeAct

open Idealize.ShloMosaic Idealize.ShloMosaic.TcCoe Idealize.ShloMosaic.ValueIdx
open Cert.ReferenceIdeal Cert.ReferenceIdeal.ReadP

variable (x0 : (⟨S100000x256, .f32⟩ : BufTy).Contents (Elt Ideal)) (x1 x2 : (⟨S1700000, .i32⟩ : BufTy).Contents (Elt Ideal))
  (x3 : (⟨S256x128, .f32⟩ : BufTy).Contents (Elt Ideal)) (x4 : (⟨S128, .f32⟩ : BufTy).Contents (Elt Ideal))
  (x5 : (⟨S128x64, .f32⟩ : BufTy).Contents (Elt Ideal)) (x6 : (⟨S64, .f32⟩ : BufTy).Contents (Elt Ideal))
  (x7 : (⟨S64x200, .f32⟩ : BufTy).Contents (Elt Ideal)) (x8 : (⟨S200, .f32⟩ : BufTy).Contents (Elt Ideal))

/-- The per-node factor, made a column and then spread along the 128 features, read at (r, j) is the factor of node r. -/
private theorem idx_v28_v29 (r : Fin 100000) (j : Fin 128) :
    idx_main_v28 (idx_main_v29 (ix2 r j)) = ix1 r :=
  funext fun a => Fin.ext (by match a with | ⟨0, _⟩ => rfl)

/-- The bias, made a row and then spread along the nodes, read at (r, j) is the bias of feature j. -/
private theorem idx_v31_v32 (r : Fin 100000) (j : Fin 128) :
    idx_main_v31 (idx_main_v32 (ix2 r j)) = ix1 j :=
  funext fun a => Fin.ext (by match a with | ⟨0, _⟩ => rfl)

/-- The same for the second layer's 64 features: the factor of node r. -/
private theorem idx_v63_v64 (r : Fin 100000) (j : Fin 64) :
    idx_main_v63 (idx_main_v64 (ix2 r j)) = ix1 r :=
  funext fun a => Fin.ext (by match a with | ⟨0, _⟩ => rfl)

/-- The same for the second layer's 64 features: the bias of feature j. -/
private theorem idx_v66_v67 (r : Fin 100000) (j : Fin 64) :
    idx_main_v66 (idx_main_v67 (ix2 r j)) = ix1 j :=
  funext fun a => Fin.ext (by match a with | ⟨0, _⟩ => rfl)

/-- Layer 1: `Spec.act1` of the aggregated messages is the reference's stage `%34`. -/
theorem act1_eq (M : FVec Ideal S100000x128 .f32) (D : FVec Ideal S100000x1 .f32) (B : FVec Ideal S1x128 .f32)
    (hM : M = val_main_v20 (F := Ideal) x0 x1 x2 x3)
    (hD : ∀ r : Fin 100000, D (ix2 r (0 : Fin 1)) = val_main_v27 (F := Ideal) x2 (ix1 r))
    (hB : ∀ j : Fin 128, B (ix2 (0 : Fin 1) j) = x4 (ix1 j)) :
    Cert.KernelIdeal.Spec.act1 M D B = val_main_v34 (F := Ideal) x0 x1 x2 x3 x4 := by
  -- Entry (r, j): both sides are max (M[r,j] · d[r] + b[j]) 0, the reference reading d and b through its broadcasts.
  subst hM
  funext i
  obtain ⟨r, j, rfl⟩ : ∃ (r : Fin 100000) (j : Fin 128), i = ix2 r j := ⟨i 0, i 1, eq_ix2 i⟩
  rw [val_main_v34_apply, val_main_v33_apply, val_main_v30_apply, val_main_v29_apply, val_main_v28_apply,
    val_main_v32_apply, val_main_v31_apply, val_main_call2_v0_apply, val_main_call2_cst_apply,
    idx_v28_v29, idx_v31_v32]
  show max (val_main_v20 (F := Ideal) x0 x1 x2 x3 (ix2 r j) * D (ix2 r (0 : Fin 1)) + B (ix2 (0 : Fin 1) j))
      (Ideal.ofBits .f32 0x00000000#32) = _
  rw [hD r, hB j]
  rfl

/-- Layer 2: `Spec.act2` of the aggregated messages is the reference's stage `%69`. -/
theorem act2_eq (M : FVec Ideal S100000x64 .f32) (D : FVec Ideal S100000x1 .f32) (B : FVec Ideal S1x64 .f32)
    (hM : M = val_main_v55 (F := Ideal) x0 x1 x2 x3 x4 x5)
    (hD : ∀ r : Fin 100000, D (ix2 r (0 : Fin 1)) = val_main_v62 (F := Ideal) x2 (ix1 r))
    (hB : ∀ j : Fin 64, B (ix2 (0 : Fin 1) j) = x6 (ix1 j)) :
    Cert.KernelIdeal.Spec.act2 M D B = val_main_v69 (F := Ideal) x0 x1 x2 x3 x4 x5 x6 := by
  -- Entry (r, j): both sides are max (M[r,j] · d[r] + b[j]) 0, the reference reading d and b through its broadcasts.
  subst hM
  funext i
  obtain ⟨r, j, rfl⟩ : ∃ (r : Fin 100000) (j : Fin 64), i = ix2 r j := ⟨i 0, i 1, eq_ix2 i⟩
  rw [val_main_v69_apply, val_main_v68_apply, val_main_v65_apply, val_main_v64_apply, val_main_v63_apply,
    val_main_v67_apply, val_main_v66_apply, val_main_call5_v0_apply, val_main_call5_cst_apply,
    idx_v63_v64, idx_v66_v67]
  show max (val_main_v55 (F := Ideal) x0 x1 x2 x3 x4 x5 (ix2 r j) * D (ix2 r (0 : Fin 1)) + B (ix2 (0 : Fin 1) j))
      (Ideal.ofBits .f32 0x00000000#32) = _
  rw [hD r, hB j]
  rfl

end Cert.BridgeAct

end
-- ==== Proof.BridgeHead.lean ====
/- The last kernel's array is the reference's log-softmax of the class scores. -/
import proofs.«154651_j18459769438249_1_alg».proof.Proof.Spec
import proofs.«154651_j18459769438249_1_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.BridgeHead

open Idealize.ShloMosaic Idealize.ShloMosaic.TcCoe Idealize.ShloMosaic.ValueIdx
open Cert.ReferenceIdeal Cert.ReferenceIdeal.ReadP

variable (x0 : (⟨S100000x256, .f32⟩ : BufTy).Contents (Elt Ideal)) (x1 x2 : (⟨S1700000, .i32⟩ : BufTy).Contents (Elt Ideal))
  (x3 : (⟨S256x128, .f32⟩ : BufTy).Contents (Elt Ideal)) (x4 : (⟨S128, .f32⟩ : BufTy).Contents (Elt Ideal))
  (x5 : (⟨S128x64, .f32⟩ : BufTy).Contents (Elt Ideal)) (x6 : (⟨S64, .f32⟩ : BufTy).Contents (Elt Ideal))
  (x7 : (⟨S64x200, .f32⟩ : BufTy).Contents (Elt Ideal)) (x8 : (⟨S200, .f32⟩ : BufTy).Contents (Elt Ideal))

/-- The class scores are the reference's `%73`: the product with the weights plus the broadcast bias. -/
private theorem logits_eq (H : FVec Ideal S100000x64 .f32) (B : FVec Ideal S1x200 .f32)
    (hH : H = val_main_v69 (F := Ideal) x0 x1 x2 x3 x4 x5 x6)
    (hB : ∀ j : Fin 200, B (ix2 (0 : Fin 1) j) = x8 (ix1 j)) :
    Cert.KernelIdeal.Spec.logits H x7 B = val_main_v73 (F := Ideal) x0 x1 x2 x3 x4 x5 x6 x7 x8 := by
  subst hH
  funext i
  obtain ⟨r, j, rfl⟩ : ∃ (r : Fin 100000) (j : Fin 200), i = ix2 r j := ⟨i 0, i 1, eq_ix2 i⟩
  unfold Cert.KernelIdeal.Spec.logits
  rw [val_main_v73_apply, val_main_v70_apply, val_main_v72_apply, val_main_v71_apply]
  have e1 : ∀ k : Fin 64, lidx_main_v70 (ix2 r j) k = ix2 r k := fun k =>
    funext fun a => Fin.ext (by match a with | ⟨0, _⟩ => rfl | ⟨1, _⟩ => rfl)
  have e2 : ∀ k : Fin 64, ridx_main_v70 (ix2 r j) k = ix2 k j := fun k =>
    funext fun a => Fin.ext (by match a with | ⟨0, _⟩ => rfl | ⟨1, _⟩ => rfl)
  have e3 : idx_main_v71 (idx_main_v72 (ix2 r j)) = ix1 j :=
    funext fun a => Fin.ext (by match a with | ⟨0, _⟩ => rfl)
  simp only [e1, e2, e3, Ideal.addf_def]
  show (∑ k : Fin 64, val_main_v69 (F := Ideal) x0 x1 x2 x3 x4 x5 x6 (ix2 r k) * x7 (ix2 k j)) + B (ix2 (0 : Fin 1) j) = _
  rw [hB j]

/-- The row index `r` of the reduced array with column `k` put back on the dropped axis is (r, k). -/
private theorem lift_row (h : S100000x200.Reduces [1] S100000) (r : Fin 100000) (k : Fin (S100000x200.size 1)) :
    h.lift (ix1 r) k = ix2 r (⟨k.val, k.isLt⟩ : Fin 200) := by
  funext c; apply Fin.ext
  fin_cases c <;> rfl

/-- The maximum of −∞ and the fold of the maximum from −∞ over a row's coordinates is the row's fold of `max` from that
    same −∞: the fold's initial value lies below the fold, so the outer maximum changes nothing. -/
private theorem rowMax_of_fold (L : FVec Ideal S100000x200 .f32) (h : S100000x200.Reduces [1] S100000) (r : Fin 100000) :
    FloatOps.maximumf (FloatOps.ofBits (F := Ideal) .f32 0xFF800000#32)
        ((Finset.univ : Finset (Fin (S100000x200.size 1))).fold FloatOps.maximumf
          (FloatOps.ofBits (F := Ideal) .f32 0xFF800000#32) (L ∘ h.lift (ix1 r)))
      = Cert.KernelIdeal.Spec.rowMax L r := by
  have hf : (L ∘ h.lift (ix1 r)) = fun k : Fin 200 => L (ix2 r k) :=
    funext fun k => congrArg L (lift_row h r k)
  rw [hf]
  show max (Ideal.ofBits .f32 0xFF800000#32)
      (Finset.fold max (Ideal.ofBits .f32 0xFF800000#32) (fun k : Fin 200 => L (ix2 r k)) Finset.univ)
    = Finset.fold max (Ideal.ofBits .f32 0xFF800000#32) (fun k : Fin 200 => L (ix2 r k)) Finset.univ
  exact max_eq_right ((Finset.le_fold_max _).mpr (Or.inl le_rfl))

/-- The reference's row maximum `%2` of the log-softmax is the row maximum of the class scores `%73`. -/
private theorem rowmax_eq (r : Fin 100000) :
    val_main_call6_v2 (F := Ideal) x0 x1 x2 x3 x4 x5 x6 x7 x8 (ix1 r)
      = Cert.KernelIdeal.Spec.rowMax (val_main_v73 (F := Ideal) x0 x1 x2 x3 x4 x5 x6 x7 x8) r := by
  have h : S100000x200.Reduces [1] S100000 := by decide
  rw [val_main_call6_v2_apply, val_main_call6_v1_apply, val_main_call6_cst_0_apply]
  unfold val_main_call6_v0
  rw [Host.reduce_eq_fold_single FloatOps.maximumf _ _ Gen.reducesTo_S100000x200_S100000_d1 h Gen.h_S_,
    val_main_call6_cst_apply]
  generalize val_main_v73 (F := Ideal) x0 x1 x2 x3 x4 x5 x6 x7 x8 = L
  exact rowMax_of_fold L h r

/-- The reference's shifted scores `%5`: each class score minus its row's maximum. -/
private theorem shifted_eq (r : Fin 100000) (k : Fin 200) :
    val_main_call6_v5 (F := Ideal) x0 x1 x2 x3 x4 x5 x6 x7 x8 (ix2 r k)
      = val_main_v73 (F := Ideal) x0 x1 x2 x3 x4 x5 x6 x7 x8 (ix2 r k)
        - Cert.KernelIdeal.Spec.rowMax (val_main_v73 (F := Ideal) x0 x1 x2 x3 x4 x5 x6 x7 x8) r := by
  have e : idx_main_call6_v3 (idx_main_call6_v4 (ix2 r k)) = ix1 r :=
    funext fun a => Fin.ext (by match a with | ⟨0, _⟩ => rfl)
  rw [val_main_call6_v5_apply, val_main_call6_v4_apply, val_main_call6_v3_apply, e, rowmax_eq, Ideal.subf_def]

/-- The reference's row sums `%7`: from zero, the sum along the row of the exponentials of the shifted scores. -/
private theorem expsum_eq (r : Fin 100000) :
    val_main_call6_v7 (F := Ideal) x0 x1 x2 x3 x4 x5 x6 x7 x8 (ix1 r)
      = ∑ k : Fin 200, Ideal.exp (val_main_v73 (F := Ideal) x0 x1 x2 x3 x4 x5 x6 x7 x8 (ix2 r k)
          - Cert.KernelIdeal.Spec.rowMax (val_main_v73 (F := Ideal) x0 x1 x2 x3 x4 x5 x6 x7 x8) r) := by
  rw [val_main_call6_v7_apply, val_main_call6_cst_1_apply, Ideal.ofBits_def, Ideal.ofBits_zero_f32, zero_add]
  refine Finset.sum_congr rfl fun k _ => ?_
  have e : idx_main_call6_v7 (ix1 r) k = ix2 r k :=
    funext fun a => Fin.ext (by match a with | ⟨0, _⟩ => rfl | ⟨1, _⟩ => rfl)
  rw [e, val_main_call6_v6_apply, shifted_eq, Ideal.hostUnary_exp_def]

/-- `Spec.head` of the second layer's activations is the reference's result `%74`. -/
theorem head_eq (H : FVec Ideal S100000x64 .f32) (B : FVec Ideal S1x200 .f32)
    (hH : H = val_main_v69 (F := Ideal) x0 x1 x2 x3 x4 x5 x6)
    (hB : ∀ j : Fin 200, B (ix2 (0 : Fin 1) j) = x8 (ix1 j)) :
    Cert.KernelIdeal.Spec.head H x7 B = val_main_v74 (F := Ideal) x0 x1 x2 x3 x4 x5 x6 x7 x8 := by
  funext i
  obtain ⟨r, j, rfl⟩ : ∃ (r : Fin 100000) (j : Fin 200), i = ix2 r j := ⟨i 0, i 1, eq_ix2 i⟩
  have e : idx_main_call6_v8 (idx_main_call6_v10 (ix2 r j)) = ix1 r :=
    funext fun a => Fin.ext (by match a with | ⟨0, _⟩ => rfl)
  unfold Cert.KernelIdeal.Spec.head
  rw [logits_eq x0 x1 x2 x3 x4 x5 x6 x7 x8 H B hH hB, val_main_v74_apply, val_main_call6_v10_apply, val_main_call6_v9_apply,
    val_main_call6_v8_apply, e, expsum_eq, shifted_eq, Ideal.hostUnary_log_def, Ideal.subf_def]
  generalize val_main_v73 (F := Ideal) x0 x1 x2 x3 x4 x5 x6 x7 x8 = L
  rfl

end Cert.BridgeHead

end
-- ==== Proof.LibTRef.lean ====
/-
  Typed references to tensor buffers: contents carried to a typed reference's buffer and back are unchanged.
  A host function printed over typed references reads each operand back from its buffer's type and writes each
  result into its buffer's type; composed, the two transports cancel wherever one operation's result is the next
  one's operand.
-/
import Idealize.ShloMosaic.Lib.StableHlo

noncomputable section

namespace Idealize.ShloMosaic.StableHlo.TRef

open Idealize.ShloMosaic Idealize.ShloMosaic.StableHlo

variable {sig : RefSig} {Val : EltTy → Type} {T : BufTy}

/-- Contents carried to a typed reference's buffer and back are unchanged. -/
theorem ofBuf_toBuf (x : TRef sig T) (v : T.Contents Val) : x.ofBuf (x.toBuf v) = v := by
  obtain ⟨r, rfl, _, _⟩ := x; rfl

/-- A buffer's contents carried to the value's type and back are unchanged. -/
theorem toBuf_ofBuf (x : TRef sig T) (v : x.ref.ty.Contents Val) : x.toBuf (x.ofBuf v) = v := by
  obtain ⟨r, rfl, _, _⟩ := x; rfl

end Idealize.ShloMosaic.StableHlo.TRef

end
-- ==== Proof.KHost.lean ====
/- The host side of the kernel program, read at the boundaries between its segments: the values the host operations
   leave for the regions, named by the reference's stage functions wherever the two programs apply the same
   operations to the same values. -/
import proofs.«154651_j18459769438249_1_alg».proof.Proof.Gen.KernelIdeal.Frame
import proofs.«154651_j18459769438249_1_alg».proof.Proof.RefReadP
import proofs.«154651_j18459769438249_1_alg».proof.Proof.LibTRef
import Idealize.ShloMosaic.Lib.StableHlo.Run

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F]
variable (m : (ℓ : Loc nD τ sig) → Buf (Elt F) ℓ) (ρ : Dev nD → PrngReg) (c : Dev nD)

/-! ## Region 0's entry (the boundary W5): the arguments as launched; the two degree factors and the three bias
    rows reshaped -/

theorem w5_arg0 : W5 m ρ c (Proc.devRef .tc main_arg0) = m ((c : Thread nD τ).loc main_arg0) := by after_results
theorem w5_arg1 : W5 m ρ c (Proc.devRef .tc main_arg1) = m ((c : Thread nD τ).loc main_arg1) := by after_results
theorem w5_arg2 : W5 m ρ c (Proc.devRef .tc main_arg2) = m ((c : Thread nD τ).loc main_arg2) := by after_results
theorem w5_arg3 : W5 m ρ c (Proc.devRef .tc main_arg3) = m ((c : Thread nD τ).loc main_arg3) := by after_results
theorem w5_arg5 : W5 m ρ c (Proc.devRef .tc main_arg5) = m ((c : Thread nD τ).loc main_arg5) := by after_results
theorem w5_arg7 : W5 m ρ c (Proc.devRef .tc main_arg7) = m ((c : Thread nD τ).loc main_arg7) := by after_results

set_option maxHeartbeats 2000000 in
/-- The source-degree factor as a column: the reshape of the reference's per-node factor of the source indices. -/
theorem w5_v7 : W5 m ρ c (Proc.devRef .tc main_v7)
    = shapeCast S100000x1 (val_main_v7 (F := F) (m ((c : Thread nD τ).loc main_arg1))) shapeCasts_S100000_S100000x1 := by
  after_results
  simp only [TRef.ofBuf_toBuf]
  simp only [val_main_v7, val_main_v6, val_main_cst_2, val_main_v5, val_main_call0_v1, val_main_call0_v0, val_main_cst_1, val_main_v4, val_main_v3, val_main_v2, val_main_cst_0, val_main_v1, val_main_cst]
  rfl

set_option maxHeartbeats 2000000 in
/-- The destination-degree factor as a column: the reshape of the reference's per-node factor of the destination indices. -/
theorem w5_v15 : W5 m ρ c (Proc.devRef .tc main_v15)
    = shapeCast S100000x1 (val_main_v27 (F := F) (m ((c : Thread nD τ).loc main_arg2))) shapeCasts_S100000_S100000x1 := by
  after_results
  simp only [TRef.ofBuf_toBuf]
  simp only [val_main_v27, val_main_v26, val_main_cst_8, val_main_v25, val_main_call1_v1, val_main_call1_v0, val_main_cst_7, val_main_v24, val_main_v23, val_main_v22, val_main_cst_6, val_main_v21, val_main_cst_5]
  rfl

/-- The three bias vectors as rows. -/
theorem w5_v16 : W5 m ρ c (Proc.devRef .tc main_v16) = shapeCast S1x128 (m ((c : Thread nD τ).loc main_arg4)) shapeCasts_S128_S1x128 := by
  after_results; rfl
theorem w5_v17 : W5 m ρ c (Proc.devRef .tc main_v17) = shapeCast S1x64 (m ((c : Thread nD τ).loc main_arg6)) shapeCasts_S64_S1x64 := by
  after_results; rfl
theorem w5_v18 : W5 m ρ c (Proc.devRef .tc main_v18) = shapeCast S1x200 (m ((c : Thread nD τ).loc main_arg8)) shapeCasts_S200_S1x200 := by
  after_results; rfl

/-- The reference computes each degree factor once per layer; the second computation is the first. -/
theorem deg_src_again (x1 : (⟨Cert.ReferenceIdeal.S1700000, .i32⟩ : BufTy).Contents (Elt F)) :
    val_main_v42 (F := F) x1 = val_main_v7 (F := F) x1 := by
  simp only [val_main_v42, val_main_v41, val_main_cst_12, val_main_v40, val_main_call3_v1, val_main_call3_v0, val_main_cst_11, val_main_v39, val_main_v38, val_main_v37, val_main_cst_10, val_main_v36, val_main_cst_9, val_main_v7, val_main_v6, val_main_cst_2, val_main_v5, val_main_call0_v1, val_main_call0_v0, val_main_cst_1, val_main_v4, val_main_v3, val_main_v2, val_main_cst_0, val_main_v1, val_main_cst]
theorem deg_dst_again (x2 : (⟨Cert.ReferenceIdeal.S1700000, .i32⟩ : BufTy).Contents (Elt F)) :
    val_main_v62 (F := F) x2 = val_main_v27 (F := F) x2 := by
  simp only [val_main_v62, val_main_v61, val_main_cst_19, val_main_v60, val_main_call4_v1, val_main_call4_v0, val_main_cst_18, val_main_v59, val_main_v58, val_main_v57, val_main_cst_17, val_main_v56, val_main_cst_16, val_main_v27, val_main_v26, val_main_cst_8, val_main_v25, val_main_call1_v1, val_main_call1_v0, val_main_cst_7, val_main_v24, val_main_v23, val_main_v22, val_main_cst_6, val_main_v21, val_main_cst_5]

/-! ## Buffers that no region and no later host operation writes keep, at every later boundary, what they held at W5 -/

theorem w6_arg1 : W6 m ρ c (Proc.devRef .tc main_arg1) = W5 m ρ c (Proc.devRef .tc main_arg1) :=
  (W6_of_ne m ρ c main_arg1 (by decide))
theorem w6_arg2 : W6 m ρ c (Proc.devRef .tc main_arg2) = W5 m ρ c (Proc.devRef .tc main_arg2) :=
  (W6_of_ne m ρ c main_arg2 (by decide))
theorem w7_v15 : W7 m ρ c (Proc.devRef .tc main_v15) = W5 m ρ c (Proc.devRef .tc main_v15) :=
  ((show W7 m ρ c (Proc.devRef .tc main_v15) = W6 m ρ c (Proc.devRef .tc main_v15) by after_results).trans (W6_of_ne m ρ c main_v15 (by decide)))
theorem w7_v16 : W7 m ρ c (Proc.devRef .tc main_v16) = W5 m ρ c (Proc.devRef .tc main_v16) :=
  ((show W7 m ρ c (Proc.devRef .tc main_v16) = W6 m ρ c (Proc.devRef .tc main_v16) by after_results).trans (W6_of_ne m ρ c main_v16 (by decide)))
theorem w8_arg5 : W8 m ρ c (Proc.devRef .tc main_arg5) = W5 m ρ c (Proc.devRef .tc main_arg5) :=
  ((W8_of_ne m ρ c main_arg5 (by decide)).trans ((show W7 m ρ c (Proc.devRef .tc main_arg5) = W6 m ρ c (Proc.devRef .tc main_arg5) by after_results).trans (W6_of_ne m ρ c main_arg5 (by decide))))
theorem w8_v7 : W8 m ρ c (Proc.devRef .tc main_v7) = W5 m ρ c (Proc.devRef .tc main_v7) :=
  ((W8_of_ne m ρ c main_v7 (by decide)).trans ((show W7 m ρ c (Proc.devRef .tc main_v7) = W6 m ρ c (Proc.devRef .tc main_v7) by after_results).trans (show W6 m ρ c (Proc.devRef .tc main_v7) = W5 m ρ c (Proc.devRef .tc main_v7) from (W6_arr m ρ c 2).trans (((dat0 (V5 m ρ) c).arrAt_in 2 rfl _).trans (A_eq0 (V5 m ρ) c 2)))))
theorem w9_arg1 : W9 m ρ c (Proc.devRef .tc main_arg1) = W5 m ρ c (Proc.devRef .tc main_arg1) :=
  ((W9_of_ne m ρ c main_arg1 (by decide)).trans ((W8_of_ne m ρ c main_arg1 (by decide)).trans ((show W7 m ρ c (Proc.devRef .tc main_arg1) = W6 m ρ c (Proc.devRef .tc main_arg1) by after_results).trans (W6_of_ne m ρ c main_arg1 (by decide)))))
theorem w9_arg2 : W9 m ρ c (Proc.devRef .tc main_arg2) = W5 m ρ c (Proc.devRef .tc main_arg2) :=
  ((W9_of_ne m ρ c main_arg2 (by decide)).trans ((W8_of_ne m ρ c main_arg2 (by decide)).trans ((show W7 m ρ c (Proc.devRef .tc main_arg2) = W6 m ρ c (Proc.devRef .tc main_arg2) by after_results).trans (W6_of_ne m ρ c main_arg2 (by decide)))))
theorem w10_v15 : W10 m ρ c (Proc.devRef .tc main_v15) = W5 m ρ c (Proc.devRef .tc main_v15) :=
  ((show W10 m ρ c (Proc.devRef .tc main_v15) = W9 m ρ c (Proc.devRef .tc main_v15) by after_results).trans ((W9_of_ne m ρ c main_v15 (by decide)).trans ((show W8 m ρ c (Proc.devRef .tc main_v15) = W7 m ρ c (Proc.devRef .tc main_v15) from (W8_arr m ρ c 1).trans (((dat1 (V7 m ρ) c).arrAt_in 1 rfl _).trans (A_eq1 (V7 m ρ) c 1))).trans ((show W7 m ρ c (Proc.devRef .tc main_v15) = W6 m ρ c (Proc.devRef .tc main_v15) by after_results).trans (W6_of_ne m ρ c main_v15 (by decide))))))
theorem w10_v17 : W10 m ρ c (Proc.devRef .tc main_v17) = W5 m ρ c (Proc.devRef .tc main_v17) :=
  ((show W10 m ρ c (Proc.devRef .tc main_v17) = W9 m ρ c (Proc.devRef .tc main_v17) by after_results).trans ((W9_of_ne m ρ c main_v17 (by decide)).trans ((W8_of_ne m ρ c main_v17 (by decide)).trans ((show W7 m ρ c (Proc.devRef .tc main_v17) = W6 m ρ c (Proc.devRef .tc main_v17) by after_results).trans (W6_of_ne m ρ c main_v17 (by decide))))))
theorem w11_arg7 : W11 m ρ c (Proc.devRef .tc main_arg7) = W5 m ρ c (Proc.devRef .tc main_arg7) :=
  ((W11_of_ne m ρ c main_arg7 (by decide)).trans ((show W10 m ρ c (Proc.devRef .tc main_arg7) = W9 m ρ c (Proc.devRef .tc main_arg7) by after_results).trans ((W9_of_ne m ρ c main_arg7 (by decide)).trans ((W8_of_ne m ρ c main_arg7 (by decide)).trans ((show W7 m ρ c (Proc.devRef .tc main_arg7) = W6 m ρ c (Proc.devRef .tc main_arg7) by after_results).trans (W6_of_ne m ρ c main_arg7 (by decide)))))))
theorem w11_v18 : W11 m ρ c (Proc.devRef .tc main_v18) = W5 m ρ c (Proc.devRef .tc main_v18) :=
  ((W11_of_ne m ρ c main_v18 (by decide)).trans ((show W10 m ρ c (Proc.devRef .tc main_v18) = W9 m ρ c (Proc.devRef .tc main_v18) by after_results).trans ((W9_of_ne m ρ c main_v18 (by decide)).trans ((W8_of_ne m ρ c main_v18 (by decide)).trans ((show W7 m ρ c (Proc.devRef .tc main_v18) = W6 m ρ c (Proc.devRef .tc main_v18) by after_results).trans (W6_of_ne m ρ c main_v18 (by decide)))))))

/-! ## The two aggregations: gather the rows at the source indices, scatter-add them at the destination indices —
    the same host operations in both programs, applied to equal values -/

set_option maxHeartbeats 2000000 in
/-- Layer 1: if region 0 left the reference's scaled linear layer, the host operations after it leave the
    reference's aggregated messages. -/
theorem w7_v29 (h19 : W6 m ρ c (Proc.devRef .tc main_v19) = val_main_v10 (F := F) (m ((c : Thread nD τ).loc main_arg0)) (m ((c : Thread nD τ).loc main_arg1)) (m ((c : Thread nD τ).loc main_arg3))) :
    W7 m ρ c (Proc.devRef .tc main_v29) = val_main_v20 (F := F) (m ((c : Thread nD τ).loc main_arg0)) (m ((c : Thread nD τ).loc main_arg1)) (m ((c : Thread nD τ).loc main_arg2)) (m ((c : Thread nD τ).loc main_arg3)) := by
  after_results
  rw [h19, w6_arg1, w6_arg2, w5_arg1, w5_arg2]
  simp only [val_main_v20, val_main_v19, val_main_v18, val_main_cst_4, val_main_v17, val_main_v16, val_main_v15, val_main_v14, val_main_v13, val_main_c_3, val_main_v12, val_main_v11, val_main_c]
  rfl

set_option maxHeartbeats 2000000 in
/-- Layer 2: the same after region 2. -/
theorem w10_v41 (h31 : W9 m ρ c (Proc.devRef .tc main_v31) = val_main_v45 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :
    W10 m ρ c (Proc.devRef .tc main_v41) = val_main_v55 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  after_results
  rw [h31, w9_arg1, w9_arg2, w5_arg1, w5_arg2]
  simp only [val_main_v55, val_main_v54, val_main_v53, val_main_cst_15, val_main_v52, val_main_v51, val_main_v50, val_main_v49, val_main_v48, val_main_c_14, val_main_v47, val_main_v46, val_main_c_13]
  rfl

end Cert.KernelIdeal.KHost

end
-- ==== Proof.Chain.lean ====
/- The kernel program's result, followed back through the segment boundaries: what each region reads when it is
   entered, what it leaves, and what the host operations between the regions make of it — each value named by the
   reference's stage function of the launch arguments. -/
import proofs.«154651_j18459769438249_1_alg».proof.Proof.Gen.KernelIdeal.Frame
import proofs.«154651_j18459769438249_1_alg».proof.Proof.Spec
import proofs.«154651_j18459769438249_1_alg».proof.Proof.RefReadP
import proofs.«154651_j18459769438249_1_alg».proof.Proof.Blocks0
import proofs.«154651_j18459769438249_1_alg».proof.Proof.Blocks1
import proofs.«154651_j18459769438249_1_alg».proof.Proof.Blocks2
import proofs.«154651_j18459769438249_1_alg».proof.Proof.Blocks3
import proofs.«154651_j18459769438249_1_alg».proof.Proof.Blocks4
import proofs.«154651_j18459769438249_1_alg».proof.Proof.BridgeLin
import proofs.«154651_j18459769438249_1_alg».proof.Proof.BridgeAct
import proofs.«154651_j18459769438249_1_alg».proof.Proof.BridgeHead
import proofs.«154651_j18459769438249_1_alg».proof.Proof.KHost
import Idealize.ShloMosaic.Lib.StableHlo.Run
import Idealize.ShloMosaic.Lib.Pipeline.Value
import Idealize.ShloMosaic.Lib.ValueIdx

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen
open Cert.ReferenceIdeal.ReadP

variable (m : (ℓ : Loc nD τ sig) → Buf (Elt Ideal) ℓ) (ρ : Dev nD → PrngReg) (c : Dev nD)

open Cert.KernelIdeal.KHost

/-! ## A reshaped vector read as a column or as a row -/

/-- A vector of 100000 entries reshaped to a column: entry (r, 0) is entry r. -/
theorem col_apply (v : FVec Ideal S100000 .f32) (r : Fin 100000) :
    shapeCast S100000x1 v shapeCasts_S100000_S100000x1 (ix2 r (0 : Fin 1)) = v (ix1 r) :=
  shapeCast_apply _ _ _ (ix1 r) (by
    rw [Shape.rowMajor_val_one, Shape.rowMajor_val_two]; show r.val = r.val * 1 + (0 : Fin 1).val; simp)
/-- A vector reshaped to a row: entry (0, j) is entry j. -/
theorem row128_apply (v : FVec Ideal S128 .f32) (j : Fin 128) :
    shapeCast S1x128 v shapeCasts_S128_S1x128 (ix2 (0 : Fin 1) j) = v (ix1 j) :=
  shapeCast_apply _ _ _ (ix1 j) (by
    rw [Shape.rowMajor_val_one, Shape.rowMajor_val_two]; show j.val = (0 : Fin 1).val * 128 + j.val; simp)
theorem row64_apply (v : FVec Ideal S64 .f32) (j : Fin 64) :
    shapeCast S1x64 v shapeCasts_S64_S1x64 (ix2 (0 : Fin 1) j) = v (ix1 j) :=
  shapeCast_apply _ _ _ (ix1 j) (by
    rw [Shape.rowMajor_val_one, Shape.rowMajor_val_two]; show j.val = (0 : Fin 1).val * 64 + j.val; simp)
theorem row200_apply (v : FVec Ideal S200 .f32) (j : Fin 200) :
    shapeCast S1x200 v shapeCasts_S200_S1x200 (ix2 (0 : Fin 1) j) = v (ix1 j) :=
  shapeCast_apply _ _ _ (ix1 j) (by
    rw [Shape.rowMajor_val_one, Shape.rowMajor_val_two]; show j.val = (0 : Fin 1).val * 200 + j.val; simp)

/-! ## The values, boundary by boundary -/

/-- Region 0 leaves the reference's first scaled linear layer. -/
theorem v19 : W6 m ρ c (Proc.devRef .tc main_v19) = val_main_v10 (F := Ideal) (m ((c : Thread nD τ).loc main_arg0)) (m ((c : Thread nD τ).loc main_arg1)) (m ((c : Thread nD τ).loc main_arg3)) := by
  refine (W6_arr m ρ c 3).trans ((Blocks0.arr0 (V5 m ρ) c).trans ?_)
  show Spec.lin1 (W5 m ρ c (Proc.devRef .tc main_arg0)) (W5 m ρ c (Proc.devRef .tc main_arg3)) (W5 m ρ c (Proc.devRef .tc main_v7)) = _
  rw [w5_arg0, w5_arg3]
  exact Cert.BridgeLin.lin1_eq _ _ _ _ (fun r => by rw [w5_v7]; exact col_apply _ r)

/-- The host operations after it leave the reference's first aggregated messages. -/
theorem v29 : W7 m ρ c (Proc.devRef .tc main_v29) = val_main_v20 (F := Ideal) (m ((c : Thread nD τ).loc main_arg0)) (m ((c : Thread nD τ).loc main_arg1)) (m ((c : Thread nD τ).loc main_arg2)) (m ((c : Thread nD τ).loc main_arg3)) :=
  w7_v29 m ρ c (v19 m ρ c)

/-- Region 1 leaves the reference's first-layer activations. -/
theorem v30 : W8 m ρ c (Proc.devRef .tc main_v30) = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m ρ c 3).trans ((Blocks1.arr1 (V7 m ρ) c).trans ?_)
  show Spec.act1 (W7 m ρ c (Proc.devRef .tc main_v29)) (W7 m ρ c (Proc.devRef .tc main_v15)) (W7 m ρ c (Proc.devRef .tc main_v16)) = _
  exact Cert.BridgeAct.act1_eq _ _ _ _ _ _ _ _ (v29 m ρ c)
    (fun r => by rw [w7_v15, w5_v15]; exact col_apply _ r)
    (fun j => by rw [w7_v16, w5_v16]; exact row128_apply _ j)

/-- Region 2 leaves the reference's second scaled linear layer. -/
theorem v31 : W9 m ρ c (Proc.devRef .tc main_v31) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 3).trans ((Blocks2.arr2 (V8 m ρ) c).trans ?_)
  show Spec.lin2 (W8 m ρ c (Proc.devRef .tc main_v30)) (W8 m ρ c (Proc.devRef .tc main_arg5)) (W8 m ρ c (Proc.devRef .tc main_v7)) = _
  rw [w8_arg5, w5_arg5]
  exact Cert.BridgeLin.lin2_eq _ _ _ _ _ _ _ _ (v30 m ρ c)
    (fun r => by rw [w8_v7, w5_v7]; exact (col_apply _ r).trans (congrFun (deg_src_again _).symm _))

/-- The host operations after it leave the reference's second aggregated messages. -/
theorem v41 : W10 m ρ c (Proc.devRef .tc main_v41) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  w10_v41 m ρ c (v31 m ρ c)

/-- Region 3 leaves the reference's second-layer activations. -/
theorem v42 : W11 m ρ c (Proc.devRef .tc main_v42) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W11_arr m ρ c 3).trans ((Blocks3.arr3 (V10 m ρ) c).trans ?_)
  show Spec.act2 (W10 m ρ c (Proc.devRef .tc main_v41)) (W10 m ρ c (Proc.devRef .tc main_v15)) (W10 m ρ c (Proc.devRef .tc main_v17)) = _
  exact Cert.BridgeAct.act2_eq _ _ _ _ _ _ _ _ _ _ (v41 m ρ c)
    (fun r => by rw [w10_v15, w5_v15]; exact (col_apply _ r).trans (congrFun (deg_dst_again _).symm _))
    (fun j => by rw [w10_v17, w5_v17]; exact row64_apply _ j)

/-- Region 4 leaves the reference's result: the log-softmax of the class scores. -/
theorem v43 : W12 m ρ c (Proc.devRef .tc main_v43) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 3).trans ((Blocks4.arr4 (V11 m ρ) c).trans ?_)
  show Spec.head (W11 m ρ c (Proc.devRef .tc main_v42)) (W11 m ρ c (Proc.devRef .tc main_arg7)) (W11 m ρ c (Proc.devRef .tc main_v18)) = _
  rw [w11_arg7, w5_arg7]
  exact Cert.BridgeHead.head_eq _ _ _ _ _ _ _ _ _ _ _ (v42 m ρ c)
    (fun j => by rw [w11_v18, w5_v18]; exact row200_apply _ j)

end Cert.KernelIdeal.Chain

end
-- ==== Proof.RefOps.lean ====
/- The reference's 123 host operations cut where a layer ends: after the first layer's activations, after the
   second layer's, and at the result. -/
import proofs.«154651_j18459769438249_1_alg».proof.Proof.RefRunP
import proofs.«154651_j18459769438249_1_alg».proof.Proof.RefReadP
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

variable {F : FTy → Type} [FloatOps F]

/-- The first layer: operations 1 to 52, ending at its activations. -/
abbrev opsA : List (HloOp τ sig (Elt F)) :=
  [ binary main_arg0 main_arg3 main_v0 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_cst (constant S_ .f32 0x3F800000#32),
    unary main_cst main_v1 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v2 (broadcastInDim S100000 ![] bcast_S_S100000 : (⟨S_, .f32⟩ : BufTy).Contents (Elt F) → (⟨S100000, .f32⟩ : BufTy).Contents (Elt F)),
    unary main_arg1 main_v3 (broadcastInDim S1700000x1 ![0] bcast_S1700000_S1700000x1_0 : (⟨S1700000, .i32⟩ : BufTy).Contents (Elt F) → (⟨S1700000x1, .i32⟩ : BufTy).Contents (Elt F)),
    ternary main_v2 main_v3 main_v1 main_v4 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.binary (TRef.of (T := ⟨S100000, .f32⟩) main_call0_v1) (TRef.of (T := ⟨S100000, .f32⟩) main_v4) (TRef.of (T := ⟨S100000, .f32⟩) main_v5) maximumf,
    nullary main_cst_2 (constant S_ .f32 0xBF000000#32),
    unary main_cst_2 main_v6 (broadcastInDim S100000 ![] bcast_S_S100000 : (⟨S_, .f32⟩ : BufTy).Contents (Elt F) → (⟨S100000, .f32⟩ : BufTy).Contents (Elt F)),
    binary main_v5 main_v6 main_v7 (Host.powf : (⟨S100000, .f32⟩ : BufTy).Contents (Elt F) → (⟨S100000, .f32⟩ : BufTy).Contents (Elt F) → (⟨S100000, .f32⟩ : BufTy).Contents (Elt F)),
    unary main_v7 main_v8 (broadcastInDim S100000x1 ![0] bcast_S100000_S100000x1_0 : (⟨S100000, .f32⟩ : BufTy).Contents (Elt F) → (⟨S100000x1, .f32⟩ : BufTy).Contents (Elt F)),
    unary main_v8 main_v9 (broadcastInDim S100000x128 ![0, 1] bcast_S100000x1_S100000x128_0_1 : (⟨S100000x1, .f32⟩ : BufTy).Contents (Elt F) → (⟨S100000x128, .f32⟩ : BufTy).Contents (Elt F)),
    binary main_v0 main_v9 main_v10 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v11 (broadcastInDim S1700000 ![] bcast_S_S1700000 : (⟨S_, .i32⟩ : BufTy).Contents (Elt F) → (⟨S1700000, .i32⟩ : BufTy).Contents (Elt F)),
    binary main_arg1 main_v11 main_v12 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v13 (broadcastInDim S1700000 ![] bcast_S_S1700000 : (⟨S_, .i32⟩ : BufTy).Contents (Elt F) → (⟨S1700000, .i32⟩ : BufTy).Contents (Elt F)),
    binary main_arg1 main_v13 main_v14 (addi : (⟨S1700000, .i32⟩ : BufTy).Contents (Elt F) → (⟨S1700000, .i32⟩ : BufTy).Contents (Elt F) → (⟨S1700000, .i32⟩ : BufTy).Contents (Elt F)),
    ternary main_v12 main_v14 main_arg1 main_v15 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v15 main_v16 (broadcastInDim S1700000x1 ![0] bcast_S1700000_S1700000x1_0 : (⟨S1700000, .i32⟩ : BufTy).Contents (Elt F) → (⟨S1700000x1, .i32⟩ : BufTy).Contents (Elt F)),
    binary main_v10 main_v16 main_v17 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    nullary main_cst_4 (constant S_ .f32 0x00000000#32),
    unary main_cst_4 main_v18 (broadcastInDim S100000x128 ![] bcast_S_S100000x128 : (⟨S_, .f32⟩ : BufTy).Contents (Elt F) → (⟨S100000x128, .f32⟩ : BufTy).Contents (Elt F)),
    unary main_arg2 main_v19 (broadcastInDim S1700000x1 ![0] bcast_S1700000_S1700000x1_0 : (⟨S1700000, .i32⟩ : BufTy).Contents (Elt F) → (⟨S1700000x1, .i32⟩ : BufTy).Contents (Elt F)),
    ternary main_v18 main_v19 main_v17 main_v20 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    nullary main_cst_5 (constant S_ .f32 0x3F800000#32),
    unary main_cst_5 main_v21 (broadcastInDim S1700000 ![] bcast_S_S1700000 : (⟨S_, .f32⟩ : BufTy).Contents (Elt F) → (⟨S1700000, .f32⟩ : BufTy).Contents (Elt F)),
    nullary main_cst_6 (constant S_ .f32 0x00000000#32),
    unary main_cst_6 main_v22 (broadcastInDim S100000 ![] bcast_S_S100000 : (⟨S_, .f32⟩ : BufTy).Contents (Elt F) → (⟨S100000, .f32⟩ : BufTy).Contents (Elt F)),
    unary main_arg2 main_v23 (broadcastInDim S1700000x1 ![0] bcast_S1700000_S1700000x1_0 : (⟨S1700000, .i32⟩ : BufTy).Contents (Elt F) → (⟨S1700000x1, .i32⟩ : BufTy).Contents (Elt F)),
    ternary main_v22 main_v23 main_v21 main_v24 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_7 (constant S_ .f32 0x3F800000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_v24) (TRef.of (T := ⟨S100000, .f32⟩) main_v25) maximumf,
    nullary main_cst_8 (constant S_ .f32 0xBF000000#32),
    unary main_cst_8 main_v26 (broadcastInDim S100000 ![] bcast_S_S100000 : (⟨S_, .f32⟩ : BufTy).Contents (Elt F) → (⟨S100000, .f32⟩ : BufTy).Contents (Elt F)),
    binary main_v25 main_v26 main_v27 (Host.powf : (⟨S100000, .f32⟩ : BufTy).Contents (Elt F) → (⟨S100000, .f32⟩ : BufTy).Contents (Elt F) → (⟨S100000, .f32⟩ : BufTy).Contents (Elt F)),
    unary main_v27 main_v28 (broadcastInDim S100000x1 ![0] bcast_S100000_S100000x1_0 : (⟨S100000, .f32⟩ : BufTy).Contents (Elt F) → (⟨S100000x1, .f32⟩ : BufTy).Contents (Elt F)),
    unary main_v28 main_v29 (broadcastInDim S100000x128 ![0, 1] bcast_S100000x1_S100000x128_0_1 : (⟨S100000x1, .f32⟩ : BufTy).Contents (Elt F) → (⟨S100000x128, .f32⟩ : BufTy).Contents (Elt F)),
    binary main_v20 main_v29 main_v30 (mulf : (⟨S100000x128, .f32⟩ : BufTy).Contents (Elt F) → (⟨S100000x128, .f32⟩ : BufTy).Contents (Elt F) → (⟨S100000x128, .f32⟩ : BufTy).Contents (Elt F)),
    unary main_arg4 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v30 main_v32 main_v33 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v33) (TRef.of (T := ⟨S100000x128, .f32⟩) main_call2_v0) (TRef.of (T := ⟨S100000x128, .f32⟩) main_v34) maximumf ]

/-- The second layer: operations 53 to 104, ending at its activations. -/
abbrev opsB : List (HloOp τ sig (Elt F)) :=
  [ binary main_v34 main_arg5 main_v35 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst_9 (constant S_ .f32 0x3F800000#32),
    unary main_cst_9 main_v36 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v37 (broadcastInDim S100000 ![] bcast_S_S100000 : (⟨S_, .f32⟩ : BufTy).Contents (Elt F) → (⟨S100000, .f32⟩ : BufTy).Contents (Elt F)),
    unary main_arg1 main_v38 (broadcastInDim S1700000x1 ![0] bcast_S1700000_S1700000x1_0 : (⟨S1700000, .i32⟩ : BufTy).Contents (Elt F) → (⟨S1700000x1, .i32⟩ : BufTy).Contents (Elt F)),
    ternary main_v37 main_v38 main_v36 main_v39 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x3F800000#32),
    TRef.unary (TRef.of (T := ⟨S_, .f32⟩) main_cst_11) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_v39) (TRef.of (T := ⟨S100000, .f32⟩) main_v40) maximumf,
    nullary main_cst_12 (constant S_ .f32 0xBF000000#32),
    unary main_cst_12 main_v41 (broadcastInDim S100000 ![] bcast_S_S100000 : (⟨S_, .f32⟩ : BufTy).Contents (Elt F) → (⟨S100000, .f32⟩ : BufTy).Contents (Elt F)),
    binary main_v40 main_v41 main_v42 (Host.powf : (⟨S100000, .f32⟩ : BufTy).Contents (Elt F) → (⟨S100000, .f32⟩ : BufTy).Contents (Elt F) → (⟨S100000, .f32⟩ : BufTy).Contents (Elt F)),
    unary main_v42 main_v43 (broadcastInDim S100000x1 ![0] bcast_S100000_S100000x1_0 : (⟨S100000, .f32⟩ : BufTy).Contents (Elt F) → (⟨S100000x1, .f32⟩ : BufTy).Contents (Elt F)),
    unary main_v43 main_v44 (broadcastInDim S100000x64 ![0, 1] bcast_S100000x1_S100000x64_0_1 : (⟨S100000x1, .f32⟩ : BufTy).Contents (Elt F) → (⟨S100000x64, .f32⟩ : BufTy).Contents (Elt F)),
    binary main_v35 main_v44 main_v45 (mulf : (⟨S100000x64, .f32⟩ : BufTy).Contents (Elt F) → (⟨S100000x64, .f32⟩ : BufTy).Contents (Elt F) → (⟨S100000x64, .f32⟩ : BufTy).Contents (Elt F)),
    nullary main_c_13 (constantI S_ 32 0#32),
    unary main_c_13 main_v46 (broadcastInDim S1700000 ![] bcast_S_S1700000 : (⟨S_, .i32⟩ : BufTy).Contents (Elt F) → (⟨S1700000, .i32⟩ : BufTy).Contents (Elt F)),
    binary main_arg1 main_v46 main_v47 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v48 (broadcastInDim S1700000 ![] bcast_S_S1700000 : (⟨S_, .i32⟩ : BufTy).Contents (Elt F) → (⟨S1700000, .i32⟩ : BufTy).Contents (Elt F)),
    binary main_arg1 main_v48 main_v49 (addi : (⟨S1700000, .i32⟩ : BufTy).Contents (Elt F) → (⟨S1700000, .i32⟩ : BufTy).Contents (Elt F) → (⟨S1700000, .i32⟩ : BufTy).Contents (Elt F)),
    ternary main_v47 main_v49 main_arg1 main_v50 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v50 main_v51 (broadcastInDim S1700000x1 ![0] bcast_S1700000_S1700000x1_0 : (⟨S1700000, .i32⟩ : BufTy).Contents (Elt F) → (⟨S1700000x1, .i32⟩ : BufTy).Contents (Elt F)),
    binary main_v45 main_v51 main_v52 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    nullary main_cst_15 (constant S_ .f32 0x00000000#32),
    unary main_cst_15 main_v53 (broadcastInDim S100000x64 ![] bcast_S_S100000x64 : (⟨S_, .f32⟩ : BufTy).Contents (Elt F) → (⟨S100000x64, .f32⟩ : BufTy).Contents (Elt F)),
    unary main_arg2 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_16 (constant S_ .f32 0x3F800000#32),
    unary main_cst_16 main_v56 (broadcastInDim S1700000 ![] bcast_S_S1700000 : (⟨S_, .f32⟩ : BufTy).Contents (Elt F) → (⟨S1700000, .f32⟩ : BufTy).Contents (Elt F)),
    nullary main_cst_17 (constant S_ .f32 0x00000000#32),
    unary main_cst_17 main_v57 (broadcastInDim S100000 ![] bcast_S_S100000 : (⟨S_, .f32⟩ : BufTy).Contents (Elt F) → (⟨S100000, .f32⟩ : BufTy).Contents (Elt F)),
    unary main_arg2 main_v58 (broadcastInDim S1700000x1 ![0] bcast_S1700000_S1700000x1_0 : (⟨S1700000, .i32⟩ : BufTy).Contents (Elt F) → (⟨S1700000x1, .i32⟩ : BufTy).Contents (Elt F)),
    ternary main_v57 main_v58 main_v56 main_v59 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_18 (constant S_ .f32 0x3F800000#32),
    TRef.unary (TRef.of (T := ⟨S_, .f32⟩) main_cst_18) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_v59) (TRef.of (T := ⟨S100000, .f32⟩) main_v60) maximumf,
    nullary main_cst_19 (constant S_ .f32 0xBF000000#32),
    unary main_cst_19 main_v61 (broadcastInDim S100000 ![] bcast_S_S100000 : (⟨S_, .f32⟩ : BufTy).Contents (Elt F) → (⟨S100000, .f32⟩ : BufTy).Contents (Elt F)),
    binary main_v60 main_v61 main_v62 (Host.powf : (⟨S100000, .f32⟩ : BufTy).Contents (Elt F) → (⟨S100000, .f32⟩ : BufTy).Contents (Elt F) → (⟨S100000, .f32⟩ : BufTy).Contents (Elt F)),
    unary main_v62 main_v63 (broadcastInDim S100000x1 ![0] bcast_S100000_S100000x1_0 : (⟨S100000, .f32⟩ : BufTy).Contents (Elt F) → (⟨S100000x1, .f32⟩ : BufTy).Contents (Elt F)),
    unary main_v63 main_v64 (broadcastInDim S100000x64 ![0, 1] bcast_S100000x1_S100000x64_0_1 : (⟨S100000x1, .f32⟩ : BufTy).Contents (Elt F) → (⟨S100000x64, .f32⟩ : BufTy).Contents (Elt F)),
    binary main_v55 main_v64 main_v65 (mulf : (⟨S100000x64, .f32⟩ : BufTy).Contents (Elt F) → (⟨S100000x64, .f32⟩ : BufTy).Contents (Elt F) → (⟨S100000x64, .f32⟩ : BufTy).Contents (Elt F)),
    unary main_arg6 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v65 main_v67 main_v68 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v68) (TRef.of (T := ⟨S100000x64, .f32⟩) main_call5_v0) (TRef.of (T := ⟨S100000x64, .f32⟩) main_v69) maximumf ]

/-- The class scores and their log-softmax: operations 105 to 123. -/
abbrev opsC : List (HloOp τ sig (Elt F)) :=
  [ binary main_v69 main_arg7 main_v70 ((fun l r => Host.dotGeneral dot_S100000x64_S64x200_S100000x200_1_0_0_1_n_n none l r) : (⟨S100000x64, .f32⟩ : BufTy).Contents (Elt F) → (⟨S64x200, .f32⟩ : BufTy).Contents (Elt F) → (⟨S100000x200, .f32⟩ : BufTy).Contents (Elt F)),
    unary main_arg8 main_v71 (broadcastInDim S1x200 ![1] bcast_S200_S1x200_1 : (⟨S200, .f32⟩ : BufTy).Contents (Elt F) → (⟨S1x200, .f32⟩ : BufTy).Contents (Elt F)),
    unary main_v71 main_v72 (broadcastInDim S100000x200 ![0, 1] bcast_S1x200_S100000x200_0_1 : (⟨S1x200, .f32⟩ : BufTy).Contents (Elt F) → (⟨S100000x200, .f32⟩ : BufTy).Contents (Elt F)),
    binary main_v70 main_v72 main_v73 (addf : (⟨S100000x200, .f32⟩ : BufTy).Contents (Elt F) → (⟨S100000x200, .f32⟩ : BufTy).Contents (Elt F) → (⟨S100000x200, .f32⟩ : BufTy).Contents (Elt F)),
    TRef.nullary (TRef.of (T := ⟨S_, .f32⟩) main_call6_cst) (constant S_ .f32 0xFF800000#32),
    TRef.binary (TRef.of (T := ⟨S100000x200, .f32⟩) main_v73) (TRef.of (T := ⟨S_, .f32⟩) main_call6_cst) (TRef.of (T := ⟨S100000, .f32⟩) main_call6_v0) (fun x v => Host.reduce FloatOps.maximumf x v reducesTo_S100000x200_S100000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S100000, .f32⟩) main_call6_v1) (broadcastInDim S100000 ![] bcast_S_S100000),
    TRef.binary (TRef.of (T := ⟨S100000, .f32⟩) main_call6_v1) (TRef.of (T := ⟨S100000, .f32⟩) main_call6_v0) (TRef.of (T := ⟨S100000, .f32⟩) main_call6_v2) maximumf,
    TRef.unary (TRef.of (T := ⟨S100000, .f32⟩) main_call6_v2) (TRef.of (T := ⟨S100000x1, .f32⟩) main_call6_v3) (broadcastInDim S100000x1 ![0] bcast_S100000_S100000x1_0),
    TRef.unary (TRef.of (T := ⟨S100000x1, .f32⟩) main_call6_v3) (TRef.of (T := ⟨S100000x200, .f32⟩) main_call6_v4) (broadcastInDim S100000x200 ![0, 1] bcast_S100000x1_S100000x200_0_1),
    TRef.binary (TRef.of (T := ⟨S100000x200, .f32⟩) main_v73) (TRef.of (T := ⟨S100000x200, .f32⟩) main_call6_v4) (TRef.of (T := ⟨S100000x200, .f32⟩) main_call6_v5) subf,
    TRef.unary (TRef.of (T := ⟨S100000x200, .f32⟩) main_call6_v5) (TRef.of (T := ⟨S100000x200, .f32⟩) main_call6_v6) Host.exp,
    TRef.nullary (TRef.of (T := ⟨S_, .f32⟩) main_call6_cst_1) (constant S_ .f32 0x00000000#32),
    TRef.binary (TRef.of (T := ⟨S100000x200, .f32⟩) main_call6_v6) (TRef.of (T := ⟨S_, .f32⟩) main_call6_cst_1) (TRef.of (T := ⟨S100000, .f32⟩) main_call6_v7) (fun x v => Host.reduceAdd x v reducesTo_S100000x200_S100000_d1 h_S_),
    TRef.unary (TRef.of (T := ⟨S100000, .f32⟩) main_call6_v7) (TRef.of (T := ⟨S100000x1, .f32⟩) main_call6_v8) (broadcastInDim S100000x1 ![0] bcast_S100000_S100000x1_0),
    TRef.unary (TRef.of (T := ⟨S100000x1, .f32⟩) main_call6_v8) (TRef.of (T := ⟨S100000x1, .f32⟩) main_call6_v9) Host.log,
    TRef.unary (TRef.of (T := ⟨S100000x1, .f32⟩) main_call6_v9) (TRef.of (T := ⟨S100000x200, .f32⟩) main_call6_v10) (broadcastInDim S100000x200 ![0, 1] bcast_S100000x1_S100000x200_0_1),
    TRef.binary (TRef.of (T := ⟨S100000x200, .f32⟩) main_call6_v5) (TRef.of (T := ⟨S100000x200, .f32⟩) main_call6_v10) (TRef.of (T := ⟨S100000x200, .f32⟩) main_v74) subf ]

/-- Running two stretches one after the other. -/
theorem after_app (l₁ l₂ : List (HloOp τ sig (Elt F))) (X : Valuation τ sig (Elt F)) :
    after (l₁ ++ l₂) X = after l₂ (after l₁ X) := by
  induction l₁ generalizing X with
  | nil => rfl
  | cons op l ih => simp only [List.cons_append, after_cons, ih]

end Cert.ReferenceIdeal.Staged

end
-- ==== Proof.RefKeep.lean ====
/- No stretch of the reference writes an argument that it or a later stretch reads. -/
import proofs.«154651_j18459769438249_1_alg».proof.Proof.RefRunP
import proofs.«154651_j18459769438249_1_alg».proof.Proof.RefReadP
import proofs.«154651_j18459769438249_1_alg».proof.Proof.RefOps
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

variable {F : FTy → Type} [FloatOps F]

theorem keepA_arg1 (X : Valuation τ sig (Elt F)) :
    after opsA X (Proc.devRef .tc main_arg1) = X (Proc.devRef .tc main_arg1) := by
  after_results_simp
theorem keepA_arg2 (X : Valuation τ sig (Elt F)) :
    after opsA X (Proc.devRef .tc main_arg2) = X (Proc.devRef .tc main_arg2) := by
  after_results_simp
theorem keepA_arg5 (X : Valuation τ sig (Elt F)) :
    after opsA X (Proc.devRef .tc main_arg5) = X (Proc.devRef .tc main_arg5) := by
  after_results_simp
theorem keepA_arg6 (X : Valuation τ sig (Elt F)) :
    after opsA X (Proc.devRef .tc main_arg6) = X (Proc.devRef .tc main_arg6) := by
  after_results_simp
theorem keepA_arg7 (X : Valuation τ sig (Elt F)) :
    after opsA X (Proc.devRef .tc main_arg7) = X (Proc.devRef .tc main_arg7) := by
  after_results_simp
theorem keepA_arg8 (X : Valuation τ sig (Elt F)) :
    after opsA X (Proc.devRef .tc main_arg8) = X (Proc.devRef .tc main_arg8) := by
  after_results_simp
theorem keepB_arg7 (X : Valuation τ sig (Elt F)) :
    after opsB X (Proc.devRef .tc main_arg7) = X (Proc.devRef .tc main_arg7) := by
  after_results_simp
theorem keepB_arg8 (X : Valuation τ sig (Elt F)) :
    after opsB X (Proc.devRef .tc main_arg8) = X (Proc.devRef .tc main_arg8) := by
  after_results_simp

end Cert.ReferenceIdeal.Staged

end
-- ==== Proof.RefStageA.lean ====
/- The reference's first stretch: the first layer's activations as their stage function of the arguments. -/
import proofs.«154651_j18459769438249_1_alg».proof.Proof.RefRunP
import proofs.«154651_j18459769438249_1_alg».proof.Proof.RefReadP
import proofs.«154651_j18459769438249_1_alg».proof.Proof.RefOps
import proofs.«154651_j18459769438249_1_alg».proof.Proof.LibTRef
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

variable {F : FTy → Type} [FloatOps F]

set_option maxRecDepth 16384 in
set_option maxHeartbeats 2000000 in
/-- After the first stretch the first layer's activations are their stage function of the arguments. -/
theorem stageA (X : Valuation τ sig (Elt F)) :
    after opsA X (Proc.devRef .tc main_v34) = val_main_v34 (F := F) (X (Proc.devRef .tc main_arg0)) (X (Proc.devRef .tc main_arg1)) (X (Proc.devRef .tc main_arg2)) (X (Proc.devRef .tc main_arg3)) (X (Proc.devRef .tc main_arg4)) := by
  after_results_simp
  simp only [TRef.ofBuf_toBuf]
  simp only [val_main_v34, val_main_call2_v0, val_main_call2_cst, val_main_v33, val_main_v32, val_main_v31, val_main_v30, val_main_v29, val_main_v28, val_main_v27, val_main_v26, val_main_cst_8, val_main_v25, val_main_call1_v1, val_main_call1_v0, val_main_cst_7, val_main_v24, val_main_v23, val_main_v22, val_main_cst_6, val_main_v21, val_main_cst_5, val_main_v20, val_main_v19, val_main_v18, val_main_cst_4, val_main_v17, val_main_v16, val_main_v15, val_main_v14, val_main_v13, val_main_c_3, val_main_v12, val_main_v11, val_main_c, val_main_v10, val_main_v9, val_main_v8, val_main_v7, val_main_v6, val_main_cst_2, val_main_v5, val_main_call0_v1, val_main_call0_v0, val_main_cst_1, val_main_v4, val_main_v3, val_main_v2, val_main_cst_0, val_main_v1, val_main_cst, val_main_v0]
  rfl

end Cert.ReferenceIdeal.Staged

end
-- ==== Proof.RefStageB.lean ====
/- The reference's second stretch: the second layer's activations as their stage function of the arguments. -/
import proofs.«154651_j18459769438249_1_alg».proof.Proof.RefRunP
import proofs.«154651_j18459769438249_1_alg».proof.Proof.RefReadP
import proofs.«154651_j18459769438249_1_alg».proof.Proof.RefOps
import proofs.«154651_j18459769438249_1_alg».proof.Proof.LibTRef
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

variable {F : FTy → Type} [FloatOps F]

set_option maxRecDepth 16384 in
set_option maxHeartbeats 2000000 in
/-- After the second stretch, entered with the first layer's activations in place, the second layer's activations
    are their stage function of the arguments. -/
theorem stageB (x0 : (⟨S100000x256, .f32⟩ : BufTy).Contents (Elt F)) (x1 x2 : (⟨S1700000, .i32⟩ : BufTy).Contents (Elt F))
    (x3 : (⟨S256x128, .f32⟩ : BufTy).Contents (Elt F)) (x4 : (⟨S128, .f32⟩ : BufTy).Contents (Elt F))
    (x5 : (⟨S128x64, .f32⟩ : BufTy).Contents (Elt F)) (x6 : (⟨S64, .f32⟩ : BufTy).Contents (Elt F))
    (Y : Valuation τ sig (Elt F)) (h34 : Y (Proc.devRef .tc main_v34) = val_main_v34 (F := F) x0 x1 x2 x3 x4)
    (h1 : Y (Proc.devRef .tc main_arg1) = x1) (h2 : Y (Proc.devRef .tc main_arg2) = x2)
    (h5 : Y (Proc.devRef .tc main_arg5) = x5) (h6 : Y (Proc.devRef .tc main_arg6) = x6) :
    after opsB Y (Proc.devRef .tc main_v69) = val_main_v69 (F := F) x0 x1 x2 x3 x4 x5 x6 := by
  after_results_simp
  simp only [TRef.ofBuf_toBuf]
  simp only [h34, h1, h2, h5, h6]
  simp only [val_main_v69, val_main_call5_v0, val_main_call5_cst, val_main_v68, val_main_v67, val_main_v66, val_main_v65, val_main_v64, val_main_v63, val_main_v62, val_main_v61, val_main_cst_19, val_main_v60, val_main_call4_v1, val_main_call4_v0, val_main_cst_18, val_main_v59, val_main_v58, val_main_v57, val_main_cst_17, val_main_v56, val_main_cst_16, val_main_v55, val_main_v54, val_main_v53, val_main_cst_15, val_main_v52, val_main_v51, val_main_v50, val_main_v49, val_main_v48, val_main_c_14, val_main_v47, val_main_v46, val_main_c_13, val_main_v45, val_main_v44, val_main_v43, val_main_v42, val_main_v41, val_main_cst_12, val_main_v40, val_main_call3_v1, val_main_call3_v0, val_main_cst_11, val_main_v39, val_main_v38, val_main_v37, val_main_cst_10, val_main_v36, val_main_cst_9, val_main_v35]
  rfl

end Cert.ReferenceIdeal.Staged

end
-- ==== Proof.RefStageC.lean ====
/- The reference's last stretch: the class scores and their log-softmax as the result's stage function of the arguments. -/
import proofs.«154651_j18459769438249_1_alg».proof.Proof.RefRunP
import proofs.«154651_j18459769438249_1_alg».proof.Proof.RefReadP
import proofs.«154651_j18459769438249_1_alg».proof.Proof.RefOps
import proofs.«154651_j18459769438249_1_alg».proof.Proof.LibTRef
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

variable {F : FTy → Type} [FloatOps F]

set_option maxRecDepth 16384 in
set_option maxHeartbeats 2000000 in
/-- After the last stretch, entered with the second layer's activations in place, the result is its stage function
    of the arguments. -/
theorem stageC (x0 : (⟨S100000x256, .f32⟩ : BufTy).Contents (Elt F)) (x1 x2 : (⟨S1700000, .i32⟩ : BufTy).Contents (Elt F))
    (x3 : (⟨S256x128, .f32⟩ : BufTy).Contents (Elt F)) (x4 : (⟨S128, .f32⟩ : BufTy).Contents (Elt F))
    (x5 : (⟨S128x64, .f32⟩ : BufTy).Contents (Elt F)) (x6 : (⟨S64, .f32⟩ : BufTy).Contents (Elt F))
    (x7 : (⟨S64x200, .f32⟩ : BufTy).Contents (Elt F)) (x8 : (⟨S200, .f32⟩ : BufTy).Contents (Elt F))
    (Y : Valuation τ sig (Elt F)) (h69 : Y (Proc.devRef .tc main_v69) = val_main_v69 (F := F) x0 x1 x2 x3 x4 x5 x6)
    (h7 : Y (Proc.devRef .tc main_arg7) = x7) (h8 : Y (Proc.devRef .tc main_arg8) = x8) :
    after opsC Y (Proc.devRef .tc main_v74) = val_main_v74 (F := F) x0 x1 x2 x3 x4 x5 x6 x7 x8 := by
  after_results_simp
  simp only [TRef.ofBuf_toBuf]
  simp only [h69, h7, h8]
  simp only [val_main_v74, val_main_call6_v10, val_main_call6_v9, val_main_call6_v8, val_main_call6_v7, val_main_call6_cst_1, val_main_call6_v6, val_main_call6_v5, val_main_call6_v4, val_main_call6_v3, val_main_call6_v2, val_main_call6_v1, val_main_call6_cst_0, val_main_call6_v0, val_main_call6_cst, val_main_v73, val_main_v72, val_main_v71, val_main_v70]
  rfl

end Cert.ReferenceIdeal.Staged

end
-- ==== Proof.RefRun.lean ====
/- The reference's run, read back stage by stage.  Its 123 host operations are cut where a layer ends; each
   stretch's last value is a function of the previous stretch's last value and of the arguments, which no operation
   writes.  Composed, the result buffer holds the stage function `val_main_v74` of the arguments, and the arguments
   end as launched. -/
import proofs.«154651_j18459769438249_1_alg».proof.Proof.RefRunP
import proofs.«154651_j18459769438249_1_alg».proof.Proof.RefReadP
import proofs.«154651_j18459769438249_1_alg».proof.Proof.RefOps
import proofs.«154651_j18459769438249_1_alg».proof.Proof.RefKeep
import proofs.«154651_j18459769438249_1_alg».proof.Proof.RefStageA
import proofs.«154651_j18459769438249_1_alg».proof.Proof.RefStageB
import proofs.«154651_j18459769438249_1_alg».proof.Proof.RefStageC
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

variable {F : FTy → Type} [FloatOps F]

/-- The three stretches, in order, are the whole line. -/
theorem ops_eq : (ops : List (HloOp τ sig (Elt F))) = opsA ++ (opsB ++ opsC) := rfl

/-- The whole line: the result buffer ends at `val_main_v74` of the contents the arguments' buffers started with. -/
theorem value (X : Valuation τ sig (Elt F)) :
    after ops X (Proc.devRef .tc main_v74) = val_main_v74 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) := by
  rw [ops_eq, after_app, after_app]
  refine stageC _ _ _ _ _ _ _ _ _ _ ?_ ?_ ?_
  · refine stageB _ _ _ _ _ _ _ _ (stageA X) ?_ ?_ ?_ ?_
    · exact keepA_arg1 X
    · exact keepA_arg2 X
    · exact keepA_arg5 X
    · exact keepA_arg6 X
  · exact (keepB_arg7 _).trans (keepA_arg7 X)
  · exact (keepB_arg8 _).trans (keepA_arg8 X)

set_option maxRecDepth 8192 in
set_option maxHeartbeats 49200000 in
/-- On every device, from any memory with zero counters: every weakly fair execution of @main terminates with the
    result at `val_main_v74` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v74).trans (value _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.Staged

end
-- ==== Proof.lean ====
/- The proof of `Cert.Claim`: a two-layer graph convolution with a log-softmax head, written as five Pallas kernels
   with the gather and scatter-add between them on the host, against the plain jnp reference.

   Both programs compute, entry by entry over the extended reals, the same composition: the per-node factors
   (degree clipped at 1, to the power −1/2); the linear layer's rows scaled by the source factor; the messages
   gathered at the source indices and scatter-added at the destination indices; the destination factor, the bias
   and the relu; the same again at the second layer's sizes; the class scores and their log-softmax.  The kernels
   work on blocks of 1000 rows, and every entry of every stage depends only on its own row (or, for the
   aggregation, on whole arrays both programs build alike), so the blocks' results are the restrictions of one
   whole-array function per kernel (Proof/Spec.lean, Proof/Blocks0 … Blocks4).  Each of those functions is the
   reference's stage (Proof/BridgeLin, BridgeAct, BridgeHead): a matmul into a zero accumulator is the
   dot_general's sum, a lane sum or maximum is the host reduction's, and the reference's extra max with −∞ before the
   subtraction changes nothing.  No law used needs finiteness, so the precondition is never opened.

   The frames of the two kernel programs are the generated ones; the kernel program's run with its result named
   (Proof/KRun.lean) is followed back through the segment boundaries (Proof/KHost.lean, Proof/Chain.lean); the
   reference's run is read back stage by stage (Proof/RefOps … RefRun.lean). -/
import proofs.«154651_j18459769438249_1_alg».proof.Defs
import proofs.«154651_j18459769438249_1_alg».proof.Proof.Gen.Kernel
import proofs.«154651_j18459769438249_1_alg».proof.Proof.Gen.Kernel.Frame
import proofs.«154651_j18459769438249_1_alg».proof.Proof.Gen.KernelIdeal
import proofs.«154651_j18459769438249_1_alg».proof.Proof.Gen.KernelIdeal.Frame
import proofs.«154651_j18459769438249_1_alg».proof.Proof.Gen.ReferenceIdeal
import proofs.«154651_j18459769438249_1_alg».proof.Proof.Gen.Pre_finite_inputs
import proofs.«154651_j18459769438249_1_alg».proof.Proof.KRun
import proofs.«154651_j18459769438249_1_alg».proof.Proof.Chain
import proofs.«154651_j18459769438249_1_alg».proof.Proof.RefRun
import Idealize.ShloMosaic.Adequacy
import Idealize.ShloMosaic.Init

noncomputable section

namespace Cert.Proof

open Idealize.ShloMosaic Idealize.SL.Sem

/-- The word-level kernel program runs, faults nowhere and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Staged.run (F := Ideal) m ρ)

/-- The idealization rewrote nothing. -/
theorem preserves : Cert.preserves_Kernel_KernelIdeal := trivial

/-- From memories agreeing on the arguments both idealized programs end with the reference's stage function
    `val_main_v74` of the arguments in their result buffers. -/
theorem algebraic : Cert.algebraic_KernelIdeal_ReferenceIdeal := by
  intro m ρ m' ρ' _ hagree
  refine ⟨fun c => Cert.ReferenceIdeal.ReadP.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Chain.v43 m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.Staged.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
